-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S50000x128 : Shape := ⟨2, ![50000, 128]⟩
abbrev S600000 : Shape := ⟨1, ![600000]⟩
abbrev S600000x50 : Shape := ⟨2, ![600000, 50]⟩
abbrev S100x128 : Shape := ⟨2, ![100, 128]⟩
abbrev S128x50 : Shape := ⟨2, ![128, 50]⟩
abbrev S128 : Shape := ⟨1, ![128]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x50 : S_.BroadcastsInDim S600000x50 (![] : Fin 0 → Fin S600000x50.rank)
  reducesTo_S600000x50_S_d0_1 : S600000x50.ReducesTo [0, 1] S_
  bcast_S_S600000 : S_.BroadcastsInDim S600000 (![] : Fin 0 → Fin S600000.rank)
  reducesTo_S600000_S_d0 : S600000.ReducesTo [0] S_
  bcast_S_S100x128 : S_.BroadcastsInDim S100x128 (![] : Fin 0 → Fin S100x128.rank)
  reducesTo_S100x128_S_d0_1 : S100x128.ReducesTo [0, 1] S_
  bcast_S_S128x50 : S_.BroadcastsInDim S128x50 (![] : Fin 0 → Fin S128x50.rank)
  reducesTo_S128x50_S_d0_1 : S128x50.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg0 : IVec S50000 32) (main_arg10 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S50000 32 := broadcastInDim S50000 ![] bcast_S_S50000 main_c_14
  let main_v40 : IVec S50000 1 := cmpi .sge main_arg0 main_v39
  let main_c_15 : IVec S_ 1 := constantI S_ 1 1#1
  let main_v41 : IVec S_ 1 := (fun x v => Host.reduce IntOp.andi x v reducesTo_S50000_S_d0 h_S_) main_v40 main_c_15
  let main_v42 : IVec S_ 1 := andi main_v38 main_v41
  let main_c_16 : IVec S_ 32 := constantI S_ 32 100#32
  let main_v43 : IVec S50000 32 := broadcastInDim S50000 ![] bcast_S_S50000 main_c_16
  let main_v44 : IVec S50000 1 := cmpi .slt main_arg0 main_v43
  let main_c_17 : IVec S_ 1 := constantI S_ 1 1#1
  let main_v45 : IVec S_ 1 := (fun x v => Host.reduce IntOp.andi x v reducesTo_S50000_S_d0 h_S_) main_v44 main_c_17
  let main_v46 : IVec S_ 1 := andi main_v42 main_v45
  main_v46

def fn_part1 {F : FTy → Type} [FloatOps F] (main_arg0 : IVec S50000 32) (main_arg7 : FVec F S128x50 .f32) (main_arg8 : FVec F S128 .f32) (main_arg9 : FVec F S128x256 .f32) (main_arg10 : FVec F S128 .f32) (main_v13 : IVec S_ 1) (main_v16 : IVec S100x128 1) : IVec S_ 1 :=
  let main_c_5 : IVec S_ 1 := constantI S_ 1 1#1
  let main_v17 : IVec S_ 1 := (fun x v => Host.reduce IntOp.andi x v reducesTo_S100x128_S_d0_1 h_S_) main_v16 main_c_5
  let main_v18 : IVec S_ 1 := andi main_v13 main_v17
  let main_v19 : FVec F S128x50 .f32 := Host.absf main_arg7
  let main_cst_6 : FVec F S_ .f32 := constant S_ .f32 0x7F800000#32
  let main_v20 : FVec F S128x50 .f32 := broadcastInDim S128x50 ![] bcast_S_S128x50 main_cst_6
  let main_v21 : IVec S128x50 1 := cmpf .olt main_v19 main_v20
  let main_c_7 : IVec S_ 1 := constantI S_ 1 1#1
  let main_v22 : IVec S_ 1 := (fun x v => Host.reduce IntOp.andi x v reducesTo_S128x50_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg9
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg0 main_arg10 main_v33

def fn {F : FTy → Type} [FloatOps F] (main_arg0 : IVec S50000 32) (main_arg1 : FVec F S50000x128 .f32) (main_arg2 : IVec S600000 32) (main_arg3 : IVec S600000 32) (main_arg4 : FVec F S600000x50 .f32) (main_arg5 : FVec F S600000 .f32) (main_arg6 : FVec F S100x128 .f32) (main_arg7 : FVec F S128x50 .f32) (main_arg8 : FVec F S128 .f32) (main_arg9 : FVec F S128x256 .f32) (main_arg10 : FVec F S128 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x50 .f32 := Host.absf main_arg4
  let main_cst_0 : FVec F S_ .f32 := constant S_ .f32 0x7F800000#32
  let main_v5 : FVec F S600000x50 .f32 := broadcastInDim S600000x50 ![] bcast_S_S600000x50 main_cst_0
  let main_v6 : IVec S600000x50 1 := cmpf .olt main_v4 main_v5
  let main_c_1 : IVec S_ 1 := constantI S_ 1 1#1
  let main_v7 : IVec S_ 1 := (fun x v => Host.reduce IntOp.andi x v reducesTo_S600000x50_S_d0_1 h_S_) main_v6 main_c_1
  let main_v8 : IVec S_ 1 := andi main_v3 main_v7
  let main_v9 : FVec F S600000 .f32 := Host.absf main_arg5
  let main_cst_2 : FVec F S_ .f32 := constant S_ .f32 0x7F800000#32
  let main_v10 : FVec F S600000 .f32 := broadcastInDim S600000 ![] bcast_S_S600000 main_cst_2
  let main_v11 : IVec S600000 1 := cmpf .olt main_v9 main_v10
  let main_c_3 : IVec S_ 1 := constantI S_ 1 1#1
  let main_v12 : IVec S_ 1 := (fun x v => Host.reduce IntOp.andi x v reducesTo_S600000_S_d0 h_S_) main_v11 main_c_3
  let main_v13 : IVec S_ 1 := andi main_v8 main_v12
  let main_v14 : FVec F S100x128 .f32 := Host.absf main_arg6
  let main_cst_4 : FVec F S_ .f32 := constant S_ .f32 0x7F800000#32
  let main_v15 : FVec F S100x128 .f32 := broadcastInDim S100x128 ![] bcast_S_S100x128 main_cst_4
  let main_v16 : IVec S100x128 1 := cmpf .olt main_v14 main_v15
  fn_part1 (F := F) main_arg0 main_arg7 main_arg8 main_arg9 main_arg10 main_v13 main_v16
-- ==== Kernel.lean ====
abbrev S50000 : Shape := ⟨1, ![50000]⟩
abbrev S50000x128 : Shape := ⟨2, ![50000, 128]⟩
abbrev S600000 : Shape := ⟨1, ![600000]⟩
abbrev S600000x50 : Shape := ⟨2, ![600000, 50]⟩
abbrev S100x128 : Shape := ⟨2, ![100, 128]⟩
abbrev S128x50 : Shape := ⟨2, ![128, 50]⟩
abbrev S128 : Shape := ⟨1, ![128]⟩
abbrev S128x256 : Shape := ⟨2, ![128, 256]⟩
abbrev S_ : Shape := ⟨0, ![]⟩
abbrev S600000x1 : Shape := ⟨2, ![600000, 1]⟩
abbrev S1x128 : Shape := ⟨2, ![1, 128]⟩
abbrev S600000x128 : Shape := ⟨2, ![600000, 128]⟩
abbrev S4000x50 : Shape := ⟨2, ![4000, 50]⟩
abbrev S4000x1 : Shape := ⟨2, ![4000, 1]⟩
abbrev S4000x128 : Shape := ⟨2, ![4000, 128]⟩
abbrev S4000x100 : Shape := ⟨2, ![4000, 100]⟩
abbrev S128x128 : Shape := ⟨2, ![128, 128]⟩
abbrev S5000x128 : Shape := ⟨2, ![5000, 128]⟩

abbrev nBuf : Space → Nat
  | .hbm => 32
  | .vmem => 20
  | .smem => 0
  | _ => 0

abbrev bufTy : (tb : Table) → Fin (tcTables nBuf tb) → BufTy
  | .hbm, ⟨0, _⟩ => ⟨S50000, .i32⟩
  | .hbm, ⟨1, _⟩ => ⟨S50000x128, .f32⟩
  | .hbm, ⟨2, _⟩ => ⟨S600000, .i32⟩
  | .hbm, ⟨3, _⟩ => ⟨S600000, .i32⟩
  | .hbm, ⟨4, _⟩ => ⟨S600000x50, .f32⟩
  | .hbm, ⟨5, _⟩ => ⟨S600000, .f32⟩
  | .hbm, ⟨6, _⟩ => ⟨S100x128, .f32⟩
  | .hbm, ⟨7, _⟩ => ⟨S128x50, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000, .i32⟩
  | .hbm, ⟨20, _⟩ => ⟨S600000x1, .i32⟩
  | .hbm, ⟨21, _⟩ => ⟨S600000x1, .f32⟩
  | .hbm, ⟨22, _⟩ => ⟨S1x128, .f32⟩
  | .hbm, ⟨23, _⟩ => ⟨S1x128, .f32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S128x128, .f32⟩
  | .hbm, ⟨30, _⟩ => ⟨S128x128, .f32⟩
  | .hbm, ⟨31, _⟩ => ⟨S50000x128, .f32⟩
  | .local _ .vmem, ⟨0, _⟩ => ⟨S4000x50, .f32⟩
  | .local _ .vmem, ⟨1, _⟩ => ⟨S4000x50, .f32⟩
  | .local _ .vmem, ⟨2, _⟩ => ⟨S4000x1, .f32⟩
  | .local _ .vmem, ⟨3, _⟩ => ⟨S4000x1, .f32⟩
  | .local _ .vmem, ⟨4, _⟩ => ⟨S4000x1, .i32⟩
  | .local _ .vmem, ⟨5, _⟩ => ⟨S4000x1, .i32⟩
  | .local _ .vmem, ⟨6, _⟩ => ⟨S128x50, .f32⟩
  | .local _ .vmem, ⟨7, _⟩ => ⟨S1x128, .f32⟩
  | .local _ .vmem, ⟨8, _⟩ => ⟨S100x128, .f32⟩
  | .local _ .vmem, ⟨9, _⟩ => ⟨S4000x128, .f32⟩
  | .local _ .vmem, ⟨10, _⟩ => ⟨S4000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  shapeCasts_S600000_S600000x1 : S600000.ShapeCasts S600000x1
  shapeCasts_S128_S1x128 : S128.ShapeCasts S1x128
  inb_S4000x50_S4000x50_0_0 : ∀ a, (![0, 0] : Fin 2 → Nat) a + S4000x50.size a ≤ S4000x50.size a
  h_S4000x50 : 0 < S4000x50.numel
  bitsLt_bf16_f32 : FTy.bits .bf16 < FTy.bits .f32
  inb_S128x50_S128x50_0_0 : ∀ a, (![0, 0] : Fin 2 → Nat) a + S128x50.size a ≤ S128x50.size a
  h_S128x50 : 0 < S128x50.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  natLt_1_32 : 1 < 32
  broadcasts_S4000x1_S4000x128 : S4000x1.Broadcasts S4000x128
  iota_S4000x100_d1_w32 : S4000x100.Iotas .tc 32 [1]
  broadcasts_S4000x1_S4000x100 : S4000x1.Broadcasts S4000x100
  inb_S100x128_S100x128_0_0 : ∀ a, (![0, 0] : Fin 2 → Nat) a + S100x128.size a ≤ S100x128.size a
  h_S100x128 : 0 < S100x128.numel
  inb_S4000x128_S4000x128_0_0 : ∀ a, (![0, 0] : Fin 2 → Nat) a + S4000x128.size a ≤ S4000x128.size a
  h_S4000x128 : 0 < S4000x128.numel
  bcast_S_S50000x128 : S_.BroadcastsInDim S50000x128 (![] : Fin 0 → Fin S50000x128.rank)
  slices_S128x256_S128x128_0_0 : S128x256.Slices ![0, 0] S128x128
  slices_S128x256_S128x128_0_128 : S128x256.Slices ![0, 128] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  gather_S50000_S600000x1_S600000_n_0_n_n_0_1_1_wf : GatherDims.WF S50000 S600000x1 S600000 [] [0] [] [0] [] 1 ![1]
  dot_S4000x50_S128x50_S4000x128_1_1_0_0_n_n_wf : DotDims.WF S4000x50 S128x50 S4000x128 [1] [1] [0] [0] [] []
  dot_S4000x100_S100x128_S4000x128_1_0_0_1_n_n_wf : DotDims.WF S4000x100 S100x128 S4000x128 [1] [0] [0] [1] [] []
  scatter_S50000x128_S600000x1_S600000x128_1_0_0_1_wf : ScatterDims.WF S50000x128 S600000x1 S600000x128 [1] [0] [0] 1
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x50.size a ≤ S600000x50.size a
  hwx0_0 : ∀ i : grid0.Coords, EltTy.bits .f32 = 32 ∨ (Rect.block (s := S600000x50) S4000x50.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S600000x1.size a
  hwx0_1 : ∀ i : grid0.Coords, EltTy.bits .f32 = 32 ∨ (Rect.block (s := S600000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S600000x1.size a
  hwx0_2 : ∀ i : grid0.Coords, EltTy.bits .i32 = 32 ∨ (Rect.block (s := S600000x1) S4000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x50.size a ≤ S128x50.size a
  hwx0_3 : ∀ i : grid0.Coords, EltTy.bits .f32 = 32 ∨ (Rect.block (s := S128x50) S128x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x128.size a ≤ S100x128.size a
  hwx0_5 : ∀ i : grid0.Coords, EltTy.bits .f32 = 32 ∨ (Rect.block (s := S100x128) S100x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S600000x128.size a
  hwx0_6 : ∀ i : grid0.Coords, EltTy.bits .f32 = 32 ∨ (Rect.block (s := S600000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S4000x50_S128x50_S4000x128_1_1_0_0_n_n : DotDims S4000x50 S128x50 S4000x128 where
  lhsContracting := [1]
  rhsContracting := [1]
  lhsNonContracting := [0]
  rhsNonContracting := [0]
  lhsBatch := []
  rhsBatch := []
  wf := dot_S4000x50_S128x50_S4000x128_1_1_0_0_n_n_wf
def dot_S4000x100_S100x128_S4000x128_1_0_0_1_n_n : DotDims S4000x100 S100x128 S4000x128 where
  lhsContracting := [1]
  rhsContracting := [0]
  lhsNonContracting := [0]
  rhsNonContracting := [1]
  lhsBatch := []
  rhsBatch := []
  wf := dot_S4000x100_S100x128_S4000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_arg4) S4000x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S100x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000 : Shape := ⟨1, ![50000]⟩
abbrev S50000x128 : Shape := ⟨2, ![50000, 128]⟩
abbrev S600000 : Shape := ⟨1, ![600000]⟩
abbrev S600000x50 : Shape := ⟨2, ![600000, 50]⟩
abbrev S100x128 : Shape := ⟨2, ![100, 128]⟩
abbrev S128x50 : Shape := ⟨2, ![128, 50]⟩
abbrev S128 : Shape := ⟨1, ![128]⟩
abbrev S128x256 : Shape := ⟨2, ![128, 256]⟩
abbrev S_ : Shape := ⟨0, ![]⟩
abbrev S50000x1 : Shape := ⟨2, ![50000, 1]⟩
abbrev S50x128 : Shape := ⟨2, ![50, 128]⟩
abbrev S600000x128 : Shape := ⟨2, ![600000, 128]⟩
abbrev S1x128 : Shape := ⟨2, ![1, 128]⟩
abbrev S600000x1 : Shape := ⟨2, ![600000, 1]⟩
abbrev S50000x256 : Shape := ⟨2, ![50000, 256]⟩
abbrev S256x128 : Shape := ⟨2, ![256, 128]⟩

abbrev nBuf : Space → Nat
  | .hbm => 63
  | .vmem => 0
  | .smem => 0
  | _ => 0

abbrev bufTy : (tb : Table) → Fin (tcTables nBuf tb) → BufTy
  | .hbm, ⟨0, _⟩ => ⟨S50000, .i32⟩
  | .hbm, ⟨1, _⟩ => ⟨S50000x128, .f32⟩
  | .hbm, ⟨2, _⟩ => ⟨S600000, .i32⟩
  | .hbm, ⟨3, _⟩ => ⟨S600000, .i32⟩
  | .hbm, ⟨4, _⟩ => ⟨S600000x50, .f32⟩
  | .hbm, ⟨5, _⟩ => ⟨S600000, .f32⟩
  | .hbm, ⟨6, _⟩ => ⟨S100x128, .f32⟩
  | .hbm, ⟨7, _⟩ => ⟨S128x50, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x128, .f32⟩
  | .hbm, ⟨20, _⟩ => ⟨S50x128, .f32⟩
  | .hbm, ⟨21, _⟩ => ⟨S600000x128, .f32⟩
  | .hbm, ⟨22, _⟩ => ⟨S1x128, .f32⟩
  | .hbm, ⟨23, _⟩ => ⟨S600000x128, .f32⟩
  | .hbm, ⟨24, _⟩ => ⟨S600000x128, .f32⟩
  | .hbm, ⟨25, _⟩ => ⟨S_, .f32⟩
  | .hbm, ⟨26, _⟩ => ⟨S600000, .f32⟩
  | .hbm, ⟨27, _⟩ => ⟨S600000, .f32⟩
  | .hbm, ⟨28, _⟩ => ⟨S600000, .f32⟩
  | .hbm, ⟨29, _⟩ => ⟨S_, .f32⟩
  | .hbm, ⟨30, _⟩ => ⟨S600000, .f32⟩
  | .hbm, ⟨31, _⟩ => ⟨S600000, .f32⟩
  | .hbm, ⟨32, _⟩ => ⟨S_, .f32⟩
  | .hbm, ⟨33, _⟩ => ⟨S600000, .f32⟩
  | .hbm, ⟨34, _⟩ => ⟨S600000, .f32⟩
  | .hbm, ⟨35, _⟩ => ⟨S_, .f32⟩
  | .hbm, ⟨36, _⟩ => ⟨S600000, .f32⟩
  | .hbm, ⟨37, _⟩ => ⟨S600000, .i1⟩
  | .hbm, ⟨38, _⟩ => ⟨S600000, .f32⟩
  | .hbm, ⟨39, _⟩ => ⟨S600000, .f32⟩
  | .hbm, ⟨40, _⟩ => ⟨S600000x1, .f32⟩
  | .hbm, ⟨41, _⟩ => ⟨S600000x128, .f32⟩
  | .hbm, ⟨42, _⟩ => ⟨S600000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S600000x128, .f32⟩
  | .hbm, ⟨53, _⟩ => ⟨S_, .f32⟩
  | .hbm, ⟨54, _⟩ => ⟨S50000x128, .f32⟩
  | .hbm, ⟨55, _⟩ => ⟨S600000x1, .i32⟩
  | .hbm, ⟨56, _⟩ => ⟨S50000x128, .f32⟩
  | .hbm, ⟨57, _⟩ => ⟨S50000x256, .f32⟩
  | .hbm, ⟨58, _⟩ => ⟨S256x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  transposes_S128x50_S50x128_1_0 : S128x50.Transposes [1, 0] S50x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  concatenates_S50000x128_S50000x128_S50000x256_d1 : Shape.Concatenates [S50000x128, S50000x128] S50000x256 1
  transposes_S128x256_S256x128_1_0 : S128x256.Transposes [1, 0] S256x128
  bcast_S1x128_S50000x128_0_1 : S1x128.BroadcastsInDim S50000x128 (![0, 1] : Fin 2 → Fin S50000x128.rank)
  gather_S100x128_S50000x1_S50000x128_1_0_n_n_0_1_1128_wf : GatherDims.WF S100x128 S50000x1 S50000x128 [1] [0] [] [0] [] 1 ![1, 128]
  dot_S600000x50_S50x128_S600000x128_1_0_0_1_n_n_wf : DotDims.WF S600000x50 S50x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []

variable [Facts₀]

def gather_S100x128_S50000x1_S50000x128_1_0_n_n_0_1_1128 : GatherDims S100x128 S50000x1 S50000x128 where
  offsetDims := [1]
  collapsedSliceDims := [0]
  operandBatchingDims := []
  startIndicesBatchingDims := []
  startIndexMap := [0]
  indexVectorDim := 1
  sliceSizes := ![1, 128]
  wf := gather_S100x128_S50000x1_S50000x128_1_0_n_n_0_1_1128_wf
def dot_S600000x50_S50x128_S600000x128_1_0_0_1_n_n : DotDims S600000x50 S50x128 S600000x128 where
  lhsContracting := [1]
  rhsContracting := [0]
  lhsNonContracting := [0]
  rhsNonContracting := [1]
  lhsBatch := []
  rhsBatch := []
  wf := dot_S600000x50_S50x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Domain.lean ====
import proofs.«417579_j39651138076968_1_alg».proof.Proof.Gen.Pre_finite_inputs
import Idealize.ShloMosaic.Lib.ReduceAll
import Idealize.ShloMosaic.Lib.ValueIdx

/-!
# The precondition, decoded: the range of the node types

The precondition is a conjunction of "all elements satisfy p" tests, each an `and`-reduction of a
one-bit array over every axis, and the claim is that the conjunction is the bit 1. Its last two
conjuncts test the first argument, the array of node types: every word is `≥ 0` and every word is
`< 100`, both compared as signed integers against a broadcast constant. A conjunction of bits is 1
only when each conjunct is 1; an `and`-reduction into a single cell is 1 only when every reduced
bit is 1; and a signed comparison bit is 1 exactly when the signed readings compare that way. So
each node type word, read as a signed integer, lies in `[0, 100)`.
-/

namespace Cert.Proof.Domain

open Idealize.ShloMosaic

/-- Every node type word, read as a signed integer, lies in `[0, 100)`. -/
theorem node_type_range (x0 : IVec Cert.Pre_finite_inputs.S50000 32)
    (x1 : FVec Ideal Cert.Pre_finite_inputs.S50000x128 .f32)
    (x2 x3 : IVec Cert.Pre_finite_inputs.S600000 32)
    (x4 : FVec Ideal Cert.Pre_finite_inputs.S600000x50 .f32)
    (x5 : FVec Ideal Cert.Pre_finite_inputs.S600000 .f32)
    (x6 : FVec Ideal Cert.Pre_finite_inputs.S100x128 .f32)
    (x7 : FVec Ideal Cert.Pre_finite_inputs.S128x50 .f32)
    (x8 : FVec Ideal Cert.Pre_finite_inputs.S128 .f32)
    (x9 : FVec Ideal Cert.Pre_finite_inputs.S128x256 .f32)
    (x10 : FVec Ideal Cert.Pre_finite_inputs.S128 .f32)
    (h : Cert.Pre_finite_inputs.fn (F := Ideal) x0 x1 x2 x3 x4 x5 x6 x7 x8 x9 x10 = fun _ => 1#1)
    (n : Fin 50000) :
    0 ≤ (x0 (Idealize.ShloMosaic.ValueIdx.ix1 n)).toInt ∧
      (x0 (Idealize.ShloMosaic.ValueIdx.ix1 n)).toInt < 100 := by
  -- the scalar shape has exactly one index
  haveI : Subsingleton Cert.Pre_finite_inputs.S_.Idx := ⟨fun a b => funext fun d => d.elim0⟩
  -- the claim at the one index of the scalar result, as a nest of bit conjunctions
  have h0 := congrFun h ValueIdx.ix0
  dsimp only [Cert.Pre_finite_inputs.fn, Cert.Pre_finite_inputs.fn_part1,
    Cert.Pre_finite_inputs.fn_part2, andi] at h0
  -- the outermost conjunct is the `< 100` test, the next one in is the `≥ 0` test
  obtain ⟨h1, hlt⟩ := IntOp.andi_eq_one.1 h0
  obtain ⟨-, hge⟩ := IntOp.andi_eq_one.1 h1
  -- a reduction by `and` into one cell that is 1 met a 1 at every index, in particular at `n`;
  -- there the comparison reads the word against the broadcast constant itself
  have hge' : IntOp.cmpi .sge (x0 (ValueIdx.ix1 n)) (0#32) = 1#1 :=
    Host.reduce_andi_all _ _ _ _ _ hge (ValueIdx.ix1 n)
  have hlt' : IntOp.cmpi .slt (x0 (ValueIdx.ix1 n)) (100#32) = 1#1 :=
    Host.reduce_andi_all _ _ _ _ _ hlt (ValueIdx.ix1 n)
  -- signed comparison bits, read back as inequalities of the signed readings
  have e0 : (0#32 : BitVec 32).toInt = 0 := by decide
  have e100 : (100#32 : BitVec 32).toInt = 100 := by decide
  rw [IntOp.cmpi_sge, e0] at hge'
  rw [IntOp.cmpi_slt, e100] at hlt'
  exact ⟨hge', hlt'⟩

end Cert.Proof.Domain
-- ==== Proof.EdgeBody.lean ====
/-
  The edge kernel's arithmetic read at one element of its output block.

  At row p, column q of a block of 4000 edges the value is the product of three factors: the embedding entry the
  edge's node-type word selects, as a sum over the table's 100 rows weighted by "the word equals the row number"
  (a 0/1 word read as a number); the projected radial basis (∑ₖ rbf[p,k] · W[q,k]) plus the bias b[0,q]; and the
  cutoff ½ (cos (d · π/5) + 1) times the indicator of d < 5, d the edge's distance. The first product contracts the
  second axis of both operands, the second the one-hot's second axis with the table's first; format changes are the
  identity on the extended reals; a column [a, 1] repeated along the columns reads its row.
-/
import proofs.«417579_j39651138076968_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Proof.EdgeBody

open Cert.KernelIdeal Cert.KernelIdeal.Gen Idealize.ShloMosaic Idealize.ShloMosaic.ValueIdx

/-- A column `[a, 1]` broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The projection matmul: axis 1 of the edge features against axis 1 of the weight -/

/-- The operand indices of the projection matmul at result index `i` and contraction index `q`, axis by axis: the edge
    features are read at (row of `i`, `q`), the weight at (column of `i`, `q`). -/
theorem lhs_proj_0 (i : S4000x128.Idx) (q : dot_S4000x50_S128x50_S4000x128_1_1_0_0_n_n.contr.Idx) :
    (dot_S4000x50_S128x50_S4000x128_1_1_0_0_n_n.lhsIdx i q 0).val = (i 0).val := by
  unfold DotDims.lhsIdx
  rw [dif_neg (show ¬(0 : Fin S4000x50.rank) ∈ dot_S4000x50_S128x50_S4000x128_1_1_0_0_n_n.lhsBatch by decide), dif_pos (show (0 : Fin S4000x50.rank) ∈ dot_S4000x50_S128x50_S4000x128_1_1_0_0_n_n.lhsNonContracting by decide)]
  rfl
theorem lhs_proj_1 (i : S4000x128.Idx) (q : dot_S4000x50_S128x50_S4000x128_1_1_0_0_n_n.contr.Idx) :
    (dot_S4000x50_S128x50_S4000x128_1_1_0_0_n_n.lhsIdx i q 1).val = (q ⟨0, by decide⟩).val :=
  dot_S4000x50_S128x50_S4000x128_1_1_0_0_n_n.lhsIdx_val_of_single rfl i q
theorem rhs_proj_0 (i : S4000x128.Idx) (q : dot_S4000x50_S128x50_S4000x128_1_1_0_0_n_n.contr.Idx) :
    (dot_S4000x50_S128x50_S4000x128_1_1_0_0_n_n.rhsIdx i q 0).val = (i 1).val := by
  unfold DotDims.rhsIdx
  rw [dif_neg (show ¬(0 : Fin S128x50.rank) ∈ dot_S4000x50_S128x50_S4000x128_1_1_0_0_n_n.rhsBatch by decide), dif_pos (show (0 : Fin S128x50.rank) ∈ dot_S4000x50_S128x50_S4000x128_1_1_0_0_n_n.rhsNonContracting by decide)]
  rfl
theorem rhs_proj_1 (i : S4000x128.Idx) (q : dot_S4000x50_S128x50_S4000x128_1_1_0_0_n_n.contr.Idx) :
    (dot_S4000x50_S128x50_S4000x128_1_1_0_0_n_n.rhsIdx i q 1).val = (q ⟨0, by decide⟩).val :=
  dot_S4000x50_S128x50_S4000x128_1_1_0_0_n_n.rhsIdx_val_of_single rfl i q

/-- The projection matmul into the zero accumulator, read at `(p, q)`: the sum over the 50 features of
    edge `p`'s feature times row `q` of the weight. -/
theorem proj_matmul_apply (a : FVec Ideal S4000x50 .bf16) (w : FVec Ideal S128x50 .bf16) (p : Fin 4000) (q : Fin 128) :
    FloatOps.matmul dot_S4000x50_S128x50_S4000x128_1_1_0_0_n_n none a w (constant (F := Ideal) S4000x128 .f32 0x00000000#32) (ix2 p q)
      = ∑ k : Fin 50, a (ix2 p k) * w (ix2 q k) := by
  rw [Ideal.matmul_constant_zero_apply, ← Equiv.sum_comp (ValueIdx.contrEquiv1 dot_S4000x50_S128x50_S4000x128_1_1_0_0_n_n 50 rfl rfl).symm]
  refine Finset.sum_congr rfl fun k _ => ?_
  have hk := ValueIdx.contrEquiv1_symm_val dot_S4000x50_S128x50_S4000x128_1_1_0_0_n_n 50 rfl rfl k
  have el : dot_S4000x50_S128x50_S4000x128_1_1_0_0_n_n.lhsIdx (ix2 p q) ((ValueIdx.contrEquiv1 dot_S4000x50_S128x50_S4000x128_1_1_0_0_n_n 50 rfl rfl).symm k) = ix2 p k := funext fun a => Fin.ext (by
    match a with
    | ⟨0, _⟩ => exact lhs_proj_0 _ _
    | ⟨1, _⟩ => exact (lhs_proj_1 _ _).trans hk)
  have er : dot_S4000x50_S128x50_S4000x128_1_1_0_0_n_n.rhsIdx (ix2 p q) ((ValueIdx.contrEquiv1 dot_S4000x50_S128x50_S4000x128_1_1_0_0_n_n 50 rfl rfl).symm k) = ix2 q k := funext fun a => Fin.ext (by
    match a with
    | ⟨0, _⟩ => exact rhs_proj_0 _ _
    | ⟨1, _⟩ => exact (rhs_proj_1 _ _).trans hk)
  rw [el, er]

/-! ## The table matmul: axis 1 of the one-hot rows against axis 0 of the table -/

/-- The operand indices of the table matmul at result index `i` and contraction index `q`, axis by axis: the
    coefficients are read at (row of `i`, `q`), the table at (`q`, column of `i`). -/
theorem lhs_emb_0 (i : S4000x128.Idx) (q : dot_S4000x100_S100x128_S4000x128_1_0_0_1_n_n.contr.Idx) :
    (dot_S4000x100_S100x128_S4000x128_1_0_0_1_n_n.lhsIdx i q 0).val = (i 0).val := by
  unfold DotDims.lhsIdx
  rw [dif_neg (show ¬(0 : Fin S4000x100.rank) ∈ dot_S4000x100_S100x128_S4000x128_1_0_0_1_n_n.lhsBatch by decide), dif_pos (show (0 : Fin S4000x100.rank) ∈ dot_S4000x100_S100x128_S4000x128_1_0_0_1_n_n.lhsNonContracting by decide)]
  rfl
theorem lhs_emb_1 (i : S4000x128.Idx) (q : dot_S4000x100_S100x128_S4000x128_1_0_0_1_n_n.contr.Idx) :
    (dot_S4000x100_S100x128_S4000x128_1_0_0_1_n_n.lhsIdx i q 1).val = (q ⟨0, by decide⟩).val :=
  dot_S4000x100_S100x128_S4000x128_1_0_0_1_n_n.lhsIdx_val_of_single rfl i q
theorem rhs_emb_0 (i : S4000x128.Idx) (q : dot_S4000x100_S100x128_S4000x128_1_0_0_1_n_n.contr.Idx) :
    (dot_S4000x100_S100x128_S4000x128_1_0_0_1_n_n.rhsIdx i q 0).val = (q ⟨0, by decide⟩).val :=
  dot_S4000x100_S100x128_S4000x128_1_0_0_1_n_n.rhsIdx_val_of_single rfl i q
theorem rhs_emb_1 (i : S4000x128.Idx) (q : dot_S4000x100_S100x128_S4000x128_1_0_0_1_n_n.contr.Idx) :
    (dot_S4000x100_S100x128_S4000x128_1_0_0_1_n_n.rhsIdx i q 1).val = (i 1).val := by
  unfold DotDims.rhsIdx
  rw [dif_neg (show ¬(1 : Fin S100x128.rank) ∈ dot_S4000x100_S100x128_S4000x128_1_0_0_1_n_n.rhsBatch by decide), dif_pos (show (1 : Fin S100x128.rank) ∈ dot_S4000x100_S100x128_S4000x128_1_0_0_1_n_n.rhsNonContracting by decide)]
  rfl

/-- The table matmul into the zero accumulator, read at `(p, q)`: the sum over the 100 table rows of
    edge `p`'s coefficient on the row times the row's entry `q`. -/
theorem emb_matmul_apply (a : FVec Ideal S4000x100 .bf16) (w : FVec Ideal S100x128 .bf16) (p : Fin 4000) (q : Fin 128) :
    FloatOps.matmul dot_S4000x100_S100x128_S4000x128_1_0_0_1_n_n none a w (constant (F := Ideal) S4000x128 .f32 0x00000000#32) (ix2 p q)
      = ∑ j : Fin 100, a (ix2 p j) * w (ix2 j q) := by
  rw [Ideal.matmul_constant_zero_apply, ← Equiv.sum_comp (ValueIdx.contrEquiv1 dot_S4000x100_S100x128_S4000x128_1_0_0_1_n_n 100 rfl rfl).symm]
  refine Finset.sum_congr rfl fun k _ => ?_
  have hk := ValueIdx.contrEquiv1_symm_val dot_S4000x100_S100x128_S4000x128_1_0_0_1_n_n 100 rfl rfl k
  have el : dot_S4000x100_S100x128_S4000x128_1_0_0_1_n_n.lhsIdx (ix2 p q) ((ValueIdx.contrEquiv1 dot_S4000x100_S100x128_S4000x128_1_0_0_1_n_n 100 rfl rfl).symm k) = ix2 p k := funext fun a => Fin.ext (by
    match a with
    | ⟨0, _⟩ => exact lhs_emb_0 _ _
    | ⟨1, _⟩ => exact (lhs_emb_1 _ _).trans hk)
  have er : dot_S4000x100_S100x128_S4000x128_1_0_0_1_n_n.rhsIdx (ix2 p q) ((ValueIdx.contrEquiv1 dot_S4000x100_S100x128_S4000x128_1_0_0_1_n_n 100 rfl rfl).symm k) = ix2 k q := funext fun a => Fin.ext (by
    match a with
    | ⟨0, _⟩ => exact (rhs_emb_0 _ _).trans hk
    | ⟨1, _⟩ => exact rhs_emb_1 _ _)
  rw [el, er]

/-! ## The edge kernel's payload at one element -/

/-- An edge's coefficient on table row `j`: the edge's type word compared with `j`, widened and converted. -/
theorem onehot_apply (x2 : Vec Ideal S4000x1 .i32) (p : Fin 4000) (j : Fin 100) :
    (cmpi .eq (broadcastTo S4000x100 x2 broadcasts_S4000x1_S4000x100) (iota .tc S4000x100 32 [1] iota_S4000x100_d1_w32)) (ix2 p j)
      = IntOp.cmpi .eq (x2 (ix2 p (0 : Fin 1))) (BitVec.ofNat 32 j.val) := by
  show IntOp.cmpi .eq (broadcastTo S4000x100 x2 broadcasts_S4000x1_S4000x100 (ix2 p j)) (iota .tc S4000x100 32 [1] iota_S4000x100_d1_w32 (ix2 p j)) = _
  rw [broadcastTo_a1_ab_apply, iota_single_apply]

/-- The payload of the edge kernel at edge `p`, lane `q`: the table row the edge's type selects (a one-hot sum
    over the 100 rows), times the projected features plus bias, times the cosine cutoff under its distance mask. -/
theorem edge_payload (x0 : Vec Ideal S4000x50 .f32) (x3 : Vec Ideal S128x50 .f32) (x4 : Vec Ideal S1x128 .f32) (x1 : Vec Ideal S4000x1 .f32) (x2 : Vec Ideal S4000x1 .i32) (x5 : Vec Ideal S100x128 .f32) (p : Fin 4000) (q : Fin 128) :
    k0_pay1 (F := Ideal) x0 x3 x4 x1 x2 x5 (ix2 p q)
      = (∑ j : Fin 100, FloatOps.sitofp (F := Ideal) .f32 ((IntOp.cmpi .eq (x2 (ix2 p (0 : Fin 1))) (BitVec.ofNat 32 j.val)).setWidth 32) * x5 (ix2 j q))
        * (((∑ k : Fin 50, x0 (ix2 p k) * x3 (ix2 q k)) + x4 (ix2 (0 : Fin 1) q))
           * ((Ideal.ofBits .f32 0x3F000000#32 * (Ideal.cos (x1 (ix2 p (0 : Fin 1)) * Ideal.ofBits .f32 0x3F20D97C#32) + Ideal.ofBits .f32 0x3F800000#32))
              * FloatOps.sitofp (F := Ideal) .f32 ((FloatOps.cmpf (F := Ideal) .olt (x1 (ix2 p (0 : Fin 1))) (Ideal.ofBits .f32 0x40A00000#32)).setWidth 32))) := by
  unfold k0_pay1
  simp only [shapeCast_self]
  show FloatOps.matmul (F := Ideal) dot_S4000x100_S100x128_S4000x128_1_0_0_1_n_n none _ _ _ (ix2 p q)
      * ((FloatOps.matmul (F := Ideal) dot_S4000x50_S128x50_S4000x128_1_1_0_0_n_n none _ _ _ (ix2 p q) + broadcastTo S4000x128 x4 _ (ix2 p q))
         * broadcastTo S4000x128 _ _ (ix2 p q)) = _
  rw [emb_matmul_apply, proj_matmul_apply, broadcastTo_1b_ab_apply, broadcastTo_a1_ab_apply]
  refine congrArg₂ (· * ·) (Finset.sum_congr rfl fun j _ => ?_) rfl
  show FloatOps.sitofp (F := Ideal) .f32 (((cmpi .eq (broadcastTo S4000x100 x2 broadcasts_S4000x1_S4000x100) (iota .tc S4000x100 32 [1] iota_S4000x100_d1_w32)) (ix2 p j)).setWidth 32) * x5 (ix2 j q) = _
  rw [onehot_apply]

end Cert.Proof.EdgeBody

end
-- ==== Proof.EdgeArray.lean ====
/-
  The first call's result array as one function of the arrays the call is entered with.

  The call walks 150 blocks of 4000 edges. At block t it reads rows 4000·t … 4000·t + 3999 of the radial-basis array,
  of the distance column and of the node-type column, the whole projection weight, bias row and embedding table, and
  writes rows 4000·t … of the message array. One message element (e, q) depends on edge e's own row only: the
  embedding row its node type selects (a 0/1-weighted sum over the 100 table rows), times the projected radial basis
  plus bias, times the cosine cutoff of the distance, times the indicator of the distance being under the cutoff.
  The blocks tile the message array, so after the call it holds that function of the entry arrays everywhere.
-/
import proofs.«417579_j39651138076968_1_alg».proof.Proof.Gen.KernelIdeal.Frame
import proofs.«417579_j39651138076968_1_alg».proof.Proof.EdgeBody
import Idealize.ShloMosaic.Lib.Pipeline.Value
import Idealize.ShloMosaic.Lib.ValueIdx
import Idealize.ShloMosaic.PureOps.Ideal.Laws

set_option maxRecDepth 16384

noncomputable section

namespace Cert.Proof.EdgeArray

open Cert.KernelIdeal Cert.KernelIdeal.Gen
open Idealize.ShloMosaic Idealize.ShloMosaic.TcCoe Idealize.ShloMosaic.ValueIdx Idealize.SL.Sem

/-- One message element from one edge's data: the 0/1-weighted sum of the table's column q over its 100 rows (the
    weight of row j is 1 exactly when the edge's node-type word is j), times ((row · weight row q) + bias q), times
    (½ (cos (d · π/5) + 1)) · [d < 5]. -/
def edgeTerm (row : Fin 50 → EReal) (d : EReal) (w : BitVec 32) (we : S128x50.Idx → EReal) (b : EReal)
    (emb : S100x128.Idx → EReal) (q : Fin 128) : EReal :=
  (∑ j : Fin 100, FloatOps.sitofp (F := Ideal) .f32 ((IntOp.cmpi .eq w (BitVec.ofNat 32 j.val)).setWidth 32) * emb (ix2 j q))
    * (((∑ k : Fin 50, row k * we (ix2 q k)) + b)
       * ((Ideal.ofBits .f32 0x3F000000#32 * (Ideal.cos (d * Ideal.ofBits .f32 0x3F20D97C#32) + Ideal.ofBits .f32 0x3F800000#32))
          * FloatOps.sitofp (F := Ideal) .f32 ((FloatOps.cmpf (F := Ideal) .olt d (Ideal.ofBits .f32 0x40A00000#32)).setWidth 32)))

/-- The body's arithmetic at one element of its block is that term of the element's row of each block. -/
theorem edge_payload (x0 : Vec Ideal S4000x50 .f32) (x3 : Vec Ideal S128x50 .f32) (x4 : Vec Ideal S1x128 .f32) (x1 : Vec Ideal S4000x1 .f32) (x2 : Vec Ideal S4000x1 .i32) (x5 : Vec Ideal S100x128 .f32) (p : Fin 4000) (q : Fin 128) :
    k0_pay1 (F := Ideal) x0 x3 x4 x1 x2 x5 (ix2 p q)
      = edgeTerm (fun k => x0 (ix2 p k)) (x1 (ix2 p (0 : Fin 1))) (x2 (ix2 p (0 : Fin 1))) x3 (x4 (ix2 (0 : Fin 1) q)) x5 q := by
  unfold edgeTerm
  exact Cert.Proof.EdgeBody.edge_payload x0 x3 x4 x1 x2 x5 p q

/-- The message array as a function of the six arrays the call reads. -/
def msgOf (rbf : S600000x50.Idx → EReal) (dist : S600000x1.Idx → EReal) (nts : S600000x1.Idx → BitVec 32)
    (we : S128x50.Idx → EReal) (be : S1x128.Idx → EReal) (emb : S100x128.Idx → EReal) : S600000x128.Idx → EReal :=
  fun i => edgeTerm (fun k => rbf (ix2 (i 0) k)) (dist (ix2 (i 0) (0 : Fin 1))) (nts (ix2 (i 0) (0 : Fin 1))) we
    (be (ix2 (0 : Fin 1) (i 1))) emb (i 1)

theorem msgOf_apply (rbf : S600000x50.Idx → EReal) (dist : S600000x1.Idx → EReal) (nts : S600000x1.Idx → BitVec 32)
    (we : S128x50.Idx → EReal) (be : S1x128.Idx → EReal) (emb : S100x128.Idx → EReal) (e : Fin 600000) (q : Fin 128) :
    msgOf rbf dist nts we be emb (ix2 e q)
      = edgeTerm (fun k => rbf (ix2 e k)) (dist (ix2 e (0 : Fin 1))) (nts (ix2 e (0 : Fin 1))) we (be (ix2 (0 : Fin 1) q)) emb q := rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 150 grid points: the three streamed inputs and the output sit at block row t,
    block column 0; the three resident inputs at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem row_lt (t : Fin cfg0.N) (p : Fin 4000) : 4000 * t.val + p.val < 600000 := by
  have ht : t.val < 150 := t.isLt
  have hp := p.isLt
  omega

/-- Row p of block t of the radial-basis input is row 4000·t + p of its array. -/
theorem blk_rbf (c : Dev nD) (t : Fin cfg0.N) (p : Fin 4000) (k : Fin 50) :
    iblk0 V c 0 t (ix2 p k) = V c main_arg4 (ix2 ⟨4000 * t.val + p.val, row_lt t p⟩ k) := by
  show V c main_arg4 (((cfg0.win 0).blk t).view.emb (ix2 p k)) = _
  refine congrArg (V c main_arg4) ?_
  obtain ⟨e0, e1, -⟩ := idx_facts t
  funext a; apply Fin.ext
  match a with
  | ⟨0, _⟩ => show win0_0.index t (0 : Fin 2) * 4000 + 1 * p.val = 4000 * t.val + p.val; omega
  | ⟨1, _⟩ => show win0_0.index t (1 : Fin 2) * 50 + 1 * k.val = k.val; omega

/-- Row p of block t of the distance column is row 4000·t + p of the column. -/
theorem blk_dist (c : Dev nD) (t : Fin cfg0.N) (p : Fin 4000) :
    iblk0 V c 1 t (ix2 p (0 : Fin 1)) = V c main_v8 (ix2 ⟨4000 * t.val + p.val, row_lt t p⟩ (0 : Fin 1)) := by
  show V c main_v8 (((cfg0.win 1).blk t).view.emb (ix2 p (0 : Fin 1))) = _
  refine congrArg (V c main_v8) ?_
  obtain ⟨-, -, e0, e1, -⟩ := idx_facts t
  funext a; apply Fin.ext
  match a with
  | ⟨0, _⟩ => show win0_1.index t (0 : Fin 2) * 4000 + 1 * p.val = 4000 * t.val + p.val; omega
  | ⟨1, _⟩ => show win0_1.index t (1 : Fin 2) * 1 + 1 * 0 = 0; omega

/-- Row p of block t of the node-type column is row 4000·t + p of the column. -/
theorem blk_nts (c : Dev nD) (t : Fin cfg0.N) (p : Fin 4000) :
    iblk0 V c 2 t (ix2 p (0 : Fin 1)) = V c main_v7 (ix2 ⟨4000 * t.val + p.val, row_lt t p⟩ (0 : Fin 1)) := by
  show V c main_v7 (((cfg0.win 2).blk t).view.emb (ix2 p (0 : Fin 1))) = _
  refine congrArg (V c main_v7) ?_
  obtain ⟨-, -, -, -, e0, e1, -⟩ := idx_facts t
  funext a; apply Fin.ext
  match a with
  | ⟨0, _⟩ => show win0_2.index t (0 : Fin 2) * 4000 + 1 * p.val = 4000 * t.val + p.val; omega
  | ⟨1, _⟩ => show win0_2.index t (1 : Fin 2) * 1 + 1 * 0 = 0; omega

/-- The projection weight is read whole at every point. -/
theorem blk_we (c : Dev nD) (t : Fin cfg0.N) : iblk0 V c 3 t = V c main_arg7 := by
  funext y
  show V c main_arg7 (((cfg0.win 3).blk t).view.emb y) = _
  refine congrArg (V c main_arg7) ?_
  obtain ⟨-, -, -, -, -, -, e0, e1, -⟩ := idx_facts t
  funext a; apply Fin.ext
  match a with
  | ⟨0, _⟩ => show win0_3.index t (0 : Fin 2) * 128 + 1 * (y 0).val = (y 0).val; omega
  | ⟨1, _⟩ => show win0_3.index t (1 : Fin 2) * 50 + 1 * (y 1).val = (y 1).val; omega

/-- The bias row is read whole at every point. -/
theorem blk_be (c : Dev nD) (t : Fin cfg0.N) : iblk0 V c 4 t = V c main_v9 := by
  funext y
  show V c main_v9 (((cfg0.win 4).blk t).view.emb y) = _
  refine congrArg (V c main_v9) ?_
  obtain ⟨-, -, -, -, -, -, -, -, e0, e1, -⟩ := idx_facts t
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The embedding table is read whole at every point. -/
theorem blk_emb (c : Dev nD) (t : Fin cfg0.N) : iblk0 V c 5 t = V c main_arg6 := by
  funext y
  show V c main_arg6 (((cfg0.win 5).blk t).view.emb y) = _
  refine congrArg (V c main_arg6) ?_
  obtain ⟨-, -, -, -, -, -, -, -, -, -, e0, e1, -⟩ := idx_facts t
  funext a; apply Fin.ext
  match a with
  | ⟨0, _⟩ => show win0_5.index t (0 : Fin 2) * 100 + 1 * (y 0).val = (y 0).val; omega
  | ⟨1, _⟩ => show win0_5.index t (1 : Fin 2) * 128 + 1 * (y 1).val = (y 1).val; omega

/-- Element (p, q) of the output's block t is element (4000·t + p, q) of the message array. -/
theorem emb_out (t : Fin cfg0.N) (p : Fin 4000) (q : Fin 128) :
    ((cfg0.win 6).blk t).view.emb (ix2 p q) = (ix2 ⟨4000 * t.val + p.val, row_lt t p⟩ q : S600000x128.Idx) := by
  obtain ⟨-, -, -, -, -, -, -, -, -, -, -, -, e0, e1⟩ := idx_facts t
  funext a; apply Fin.ext
  match a with
  | ⟨0, _⟩ => show win0_6.index t (0 : Fin 2) * 4000 + 1 * p.val = 4000 * t.val + p.val; omega
  | ⟨1, _⟩ => show win0_6.index t (1 : Fin 2) * 128 + 1 * q.val = q.val; omega

/-- The payload over one point's blocks, at every element of the block, is the message function read through the block. -/
theorem block_eq (x0 : Vec Ideal S4000x50 .f32) (x3 : Vec Ideal S128x50 .f32) (x4 : Vec Ideal S1x128 .f32) (x1 : Vec Ideal S4000x1 .f32)
    (x2 : Vec Ideal S4000x1 .i32) (x5 : Vec Ideal S100x128 .f32) (G : S600000x128.Idx → EReal) (em : S4000x128.Idx → S600000x128.Idx)
    (h : ∀ (p : Fin 4000) (q : Fin 128),
      edgeTerm (fun k => x0 (ix2 p k)) (x1 (ix2 p (0 : Fin 1))) (x2 (ix2 p (0 : Fin 1))) x3 (x4 (ix2 (0 : Fin 1) q)) x5 q = G (em (ix2 p q)))
    (j : S4000x128.Idx) : k0_pay1 (F := Ideal) x0 x3 x4 x1 x2 x5 j = G (em j) := by
  obtain ⟨p, q, rfl⟩ : ∃ (p : Fin 4000) (q : Fin 128), j = ix2 p q := ⟨j 0, j 1, eq_ix2 j⟩
  rw [edge_payload]
  exact h p q

/-- What point t writes back is block t of the message function of the entry arrays. -/
theorem flushed_eq (c : Dev nD) (t : Fin cfg0.N) :
    (dat0 V c).flushed 6 t = ((cfg0.win 6).blk t).view.read (Elt Ideal)
      (msgOf (V c main_arg4) (V c main_v8) (V c main_v7) (V c main_arg7) (V c main_v9) (V c main_arg6)) := by
  show (cfg0.win 6).cut (grid0.coords t) ((dat0 V c).after 6 t) = _
  rw [after0_6]
  unfold out0_6
  rw [View.canon_unit_zero hz]
  simp only [View.ld_unit_zero (S := S4000x50) hz, View.ld_unit_zero (S := S128x50) hz, View.ld_unit_zero (S := S1x128) hz, View.ld_unit_zero (S := S4000x1) hz, View.ld_unit_zero (S := S100x128) hz]
  funext j
  show k0_pay1 (F := Ideal) (iblk0 V c 0 t) (iblk0 V c 3 t) (iblk0 V c 4 t) (iblk0 V c 1 t) (iblk0 V c 2 t) (iblk0 V c 5 t) j
    = msgOf (V c main_arg4) (V c main_v8) (V c main_v7) (V c main_arg7) (V c main_v9) (V c main_arg6) (((cfg0.win 6).blk t).view.emb j)
  refine block_eq (iblk0 V c 0 t) (iblk0 V c 3 t) (iblk0 V c 4 t) (iblk0 V c 1 t) (iblk0 V c 2 t) (iblk0 V c 5 t) _ _ ?_ j
  intro p q
  rw [emb_out t p q, msgOf_apply, blk_dist V c t p, blk_nts V c t p, blk_we V c t, blk_be V c t, blk_emb V c t]
  simp only [blk_rbf V c t p]

/-- An index of the message array is in point t's block iff its row is among the block's 4000 rows. -/
theorem mem_blk (t : Fin cfg0.N) (i : S600000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v11).slice (win0_6.rect t)).set ↔ _
  rw [View.set_slice_whole, Rect.mem_set_unit]
  exact Iff.rfl

/-- Every element of the message array lies in the block of the point its row names. -/
theorem cover (i : S600000x128.Idx) : ∃ t : Fin cfg0.N, (cfg0.win 6).flush t = true ∧ i ∈ ((cfg0.win 6).blk t).view.set := by
  have hi0 : (i 0).val < 600000 := (i 0).isLt
  have hi1 : (i 1).val < 128 := (i 1).isLt
  let t : Fin cfg0.N := ⟨(i 0).val / 4000, by show (i 0).val / 4000 < 150; omega⟩
  have htv : t.val = (i 0).val / 4000 := rfl
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-- After the call the message array holds the message function of the entry arrays. -/
theorem final (c : Dev nD) :
    (dat0 V c).arrAt 6 cfg0.N = msgOf (V c main_arg4) (V c main_v8) (V c main_v7) (V c main_arg7) (V c main_v9) (V c main_arg6) :=
  (dat0 V c).arrAt_eq_of_cover 6 _ (fun t _ => flushed_eq V c t) cover

end Cert.Proof.EdgeArray

end
-- ==== Proof.CombineBody.lean ====
/-
  The combine kernel's arithmetic read at one element of its output block.

  The combine step takes a block of node features `x0` and the block of aggregated messages `x1`
  (both 5000 × 128), two square weight halves `x2`, `x3` (128 × 128) and a bias row `x4` (1 × 128).
  Its value at row `p`, column `q` is

      (∑ₖ x0[p,k] · x2[q,k]) + (∑ₖ x1[p,k] · x3[q,k]) + x4[0,q].

  Both products contract the SECOND axis of both operands (the weights are used transposed), the
  format changes are the identity on the extended reals, the same-shape casts are identities, and
  the bias row is repeated along the rows.

  The second statement is pure arithmetic: a sum over 256 indices is the sum over the first 128 plus
  the sum over the last 128.
-/
import proofs.«417579_j39651138076968_1_alg».proof.Proof.Gen.KernelIdeal.Skeleton
import Idealize.ShloMosaic.Lib.Pipeline.Value
import Idealize.ShloMosaic.Lib.ValueIdx
import Idealize.ShloMosaic.PureOps.Ideal.Laws
import Mathlib.Algebra.BigOperators.Fin

noncomputable section

namespace Cert.Proof.CombineBody

open Cert.KernelIdeal Cert.KernelIdeal.Gen Idealize.ShloMosaic Idealize.ShloMosaic.ValueIdx

open scoped BigOperators

/-! ## The operand indices of the contraction, axis by axis -/

/-- The left operand's row is the output's row. -/
theorem lhs_combine_0 (i : S5000x128.Idx) (q : dot_S5000x128_S128x128_S5000x128_1_1_0_0_n_n.contr.Idx) :
    (dot_S5000x128_S128x128_S5000x128_1_1_0_0_n_n.lhsIdx i q 0).val = (i 0).val := by
  unfold DotDims.lhsIdx
  rw [dif_neg (show ¬(0 : Fin S5000x128.rank) ∈ dot_S5000x128_S128x128_S5000x128_1_1_0_0_n_n.lhsBatch by decide), dif_pos (show (0 : Fin S5000x128.rank) ∈ dot_S5000x128_S128x128_S5000x128_1_1_0_0_n_n.lhsNonContracting by decide)]
  rfl

/-- The left operand's column is the contraction position. -/
theorem lhs_combine_1 (i : S5000x128.Idx) (q : dot_S5000x128_S128x128_S5000x128_1_1_0_0_n_n.contr.Idx) :
    (dot_S5000x128_S128x128_S5000x128_1_1_0_0_n_n.lhsIdx i q 1).val = (q ⟨0, by decide⟩).val :=
  dot_S5000x128_S128x128_S5000x128_1_1_0_0_n_n.lhsIdx_val_of_single rfl i q

/-- The right operand's row is the output's column (the weight is used transposed). -/
theorem rhs_combine_0 (i : S5000x128.Idx) (q : dot_S5000x128_S128x128_S5000x128_1_1_0_0_n_n.contr.Idx) :
    (dot_S5000x128_S128x128_S5000x128_1_1_0_0_n_n.rhsIdx i q 0).val = (i 1).val := by
  unfold DotDims.rhsIdx
  rw [dif_neg (show ¬(0 : Fin S128x128.rank) ∈ dot_S5000x128_S128x128_S5000x128_1_1_0_0_n_n.rhsBatch by decide), dif_pos (show (0 : Fin S128x128.rank) ∈ dot_S5000x128_S128x128_S5000x128_1_1_0_0_n_n.rhsNonContracting by decide)]
  rfl

/-- The right operand's column is the contraction position. -/
theorem rhs_combine_1 (i : S5000x128.Idx) (q : dot_S5000x128_S128x128_S5000x128_1_1_0_0_n_n.contr.Idx) :
    (dot_S5000x128_S128x128_S5000x128_1_1_0_0_n_n.rhsIdx i q 1).val = (q ⟨0, by decide⟩).val :=
  dot_S5000x128_S128x128_S5000x128_1_1_0_0_n_n.rhsIdx_val_of_single rfl i q

/-! ## One product into the zero accumulator, at an element -/

/-- A product of a 5000 × 128 block with a transposed 128 × 128 weight, accumulated into zero, read at
    row `p`, column `q`: the sum over the shared axis of the row of the block times the row of the weight. -/
theorem matmul_zero_at {φ₁ φ₂ : FTy} (a : FVec Ideal S5000x128 φ₁) (w : FVec Ideal S128x128 φ₂) (p : Fin 5000) (q : Fin 128) :
    FloatOps.matmul dot_S5000x128_S128x128_S5000x128_1_1_0_0_n_n none a w (constant S5000x128 .f32 0x00000000#32) (ix2 p q)
      = ∑ k : Fin 128, a (ix2 p k) * w (ix2 q k) := by
  rw [Ideal.matmul_constant_zero_apply, ← Equiv.sum_comp (ValueIdx.contrEquiv1 dot_S5000x128_S128x128_S5000x128_1_1_0_0_n_n 128 rfl rfl).symm]
  refine Finset.sum_congr rfl fun k _ => ?_
  have hk := ValueIdx.contrEquiv1_symm_val dot_S5000x128_S128x128_S5000x128_1_1_0_0_n_n 128 rfl rfl k
  have el : dot_S5000x128_S128x128_S5000x128_1_1_0_0_n_n.lhsIdx (ix2 p q) ((ValueIdx.contrEquiv1 dot_S5000x128_S128x128_S5000x128_1_1_0_0_n_n 128 rfl rfl).symm k) = ix2 p k := funext fun a => Fin.ext (by
    match a with
    | ⟨0, _⟩ => exact lhs_combine_0 _ _
    | ⟨1, _⟩ => exact (lhs_combine_1 _ _).trans hk)
  have er : dot_S5000x128_S128x128_S5000x128_1_1_0_0_n_n.rhsIdx (ix2 p q) ((ValueIdx.contrEquiv1 dot_S5000x128_S128x128_S5000x128_1_1_0_0_n_n 128 rfl rfl).symm k) = ix2 q k := funext fun a => Fin.ext (by
    match a with
    | ⟨0, _⟩ => exact rhs_combine_0 _ _
    | ⟨1, _⟩ => exact (rhs_combine_1 _ _).trans hk)
  rw [el, er]

/-! ## The bias row repeated along the rows -/

/-- The bias row broadcast to 5000 rows, read at row `p`, column `q`, is the bias at column `q`. -/
theorem bias_at {α : Type} (b : S1x128.Idx → α) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun a => by
    match a with
    | ⟨0, _⟩ => rfl
    | ⟨1, _⟩ => rfl)

/-! ## The payload at an element -/

theorem combine_payload (x0 x1 : Vec Ideal S5000x128 .f32) (x2 x3 : Vec Ideal S128x128 .f32) (x4 : Vec Ideal S1x128 .f32) (p : Fin 5000) (q : Fin 128) :
    k1_pay1 (F := Ideal) x0 x1 x2 x3 x4 (ix2 p q)
      = ((∑ k : Fin 128, x0 (ix2 p k) * x2 (ix2 q k)) + (∑ k : Fin 128, x1 (ix2 p k) * x3 (ix2 q k))) + x4 (ix2 (0 : Fin 1) q) := by
  unfold k1_pay1
  simp only [shapeCast_self]
  show (FloatOps.matmul (F := Ideal) (φ₁ := .bf16) (φ₂ := .bf16) dot_S5000x128_S128x128_S5000x128_1_1_0_0_n_n none _ _ (constant S5000x128 .f32 0x00000000#32) (ix2 p q)
      + FloatOps.matmul (F := Ideal) (φ₁ := .bf16) (φ₂ := .bf16) dot_S5000x128_S128x128_S5000x128_1_1_0_0_n_n none _ _ (constant S5000x128 .f32 0x00000000#32) (ix2 p q))
      + broadcastTo S5000x128 x4 broadcasts_S1x128_S5000x128 (ix2 p q) = _
  rw [matmul_zero_at, matmul_zero_at, bias_at]
  rfl

/-! ## A sum over 256 indices splits into its halves -/

theorem sum_split_256 (f : Fin 256 → EReal) :
    ∑ k : Fin 256, f k = (∑ k : Fin 128, f ⟨k.val, by omega⟩) + (∑ k : Fin 128, f ⟨128 + k.val, by omega⟩) := by
  have h := Fin.sum_univ_add (M := EReal) (a := 128) (b := 128) (fun i : Fin (128 + 128) => f ⟨i.val, i.isLt⟩)
  exact h

end Cert.Proof.CombineBody

end
-- ==== Proof.CombineArray.lean ====
/-
  The second call's result array as one function of the arrays the call is entered with.

  The call walks 10 blocks of 5000 nodes. At block t it reads rows 5000·t … 5000·t + 4999 of the node features and of
  the aggregated messages, the two 128 × 128 halves of the combining weight and the bias row whole, and writes rows
  5000·t … of the result. Element (n, q) depends on node n's two rows only: (features · first-half row q) +
  (messages · second-half row q) + bias q. The blocks tile the result, so after the call it holds that function of
  the entry arrays everywhere.
-/
import proofs.«417579_j39651138076968_1_alg».proof.Proof.Gen.KernelIdeal.Frame
import proofs.«417579_j39651138076968_1_alg».proof.Proof.CombineBody
import Idealize.ShloMosaic.Lib.Pipeline.Value
import Idealize.ShloMosaic.Lib.ValueIdx
import Idealize.ShloMosaic.PureOps.Ideal.Laws

set_option maxRecDepth 16384

noncomputable section

namespace Cert.Proof.CombineArray

open Cert.KernelIdeal Cert.KernelIdeal.Gen
open Idealize.ShloMosaic Idealize.ShloMosaic.TcCoe Idealize.ShloMosaic.ValueIdx Idealize.SL.Sem

/-- One result element from one node's two rows: (r₁ · first-half row q) + (r₂ · second-half row q) + bias. -/
def combTerm (r1 r2 : Fin 128 → EReal) (w1 w2 : S128x128.Idx → EReal) (b : EReal) (q : Fin 128) : EReal :=
  ((∑ k : Fin 128, r1 k * w1 (ix2 q k)) + (∑ k : Fin 128, r2 k * w2 (ix2 q k))) + b

/-- The result array as a function of the five arrays the call reads. -/
def outOf (xn xi : S50000x128.Idx → EReal) (w1 w2 : S128x128.Idx → EReal) (b : S1x128.Idx → EReal) : S50000x128.Idx → EReal :=
  fun i => combTerm (fun k => xn (ix2 (i 0) k)) (fun k => xi (ix2 (i 0) k)) w1 w2 (b (ix2 (0 : Fin 1) (i 1))) (i 1)

theorem outOf_apply (xn xi : S50000x128.Idx → EReal) (w1 w2 : S128x128.Idx → EReal) (b : S1x128.Idx → EReal) (n : Fin 50000) (q : Fin 128) :
    outOf xn xi w1 w2 b (ix2 n q)
      = combTerm (fun k => xn (ix2 n k)) (fun k => xi (ix2 n k)) w1 w2 (b (ix2 (0 : Fin 1) q)) q := rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 10 grid points: the two streamed inputs and the output sit at block row t, block
    column 0; the three resident inputs at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem row_lt (t : Fin cfg1.N) (p : Fin 5000) : 5000 * t.val + p.val < 50000 := by
  have ht : t.val < 10 := t.isLt
  have hp := p.isLt
  omega

/-- Row p of block t of the node features is row 5000·t + p of the array. -/
theorem blk_xn (c : Dev nD) (t : Fin cfg1.N) (p : Fin 5000) (k : Fin 128) :
    iblk1 V c 0 t (ix2 p k) = V c main_arg1 (ix2 ⟨5000 * t.val + p.val, row_lt t p⟩ k) := by
  show V c main_arg1 (((cfg1.win 0).blk t).view.emb (ix2 p k)) = _
  refine congrArg (V c main_arg1) ?_
  obtain ⟨e0, e1, -⟩ := idx_facts t
  funext a; apply Fin.ext
  match a with
  | ⟨0, _⟩ => show win1_0.index t (0 : Fin 2) * 5000 + 1 * p.val = 5000 * t.val + p.val; omega
  | ⟨1, _⟩ => show win1_0.index t (1 : Fin 2) * 128 + 1 * k.val = k.val; omega

/-- Row p of block t of the aggregated messages is row 5000·t + p of the array. -/
theorem blk_xi (c : Dev nD) (t : Fin cfg1.N) (p : Fin 5000) (k : Fin 128) :
    iblk1 V c 1 t (ix2 p k) = V c main_v14 (ix2 ⟨5000 * t.val + p.val, row_lt t p⟩ k) := by
  show V c main_v14 (((cfg1.win 1).blk t).view.emb (ix2 p k)) = _
  refine congrArg (V c main_v14) ?_
  obtain ⟨-, -, e0, e1, -⟩ := idx_facts t
  funext a; apply Fin.ext
  match a with
  | ⟨0, _⟩ => show win1_1.index t (0 : Fin 2) * 5000 + 1 * p.val = 5000 * t.val + p.val; omega
  | ⟨1, _⟩ => show win1_1.index t (1 : Fin 2) * 128 + 1 * k.val = k.val; omega

/-- The first weight half is read whole at every point. -/
theorem blk_w1 (c : Dev nD) (t : Fin cfg1.N) : iblk1 V c 2 t = V c main_v15 := by
  funext y
  show V c main_v15 (((cfg1.win 2).blk t).view.emb y) = _
  refine congrArg (V c main_v15) ?_
  obtain ⟨-, -, -, -, e0, e1, -⟩ := idx_facts t
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The second weight half is read whole at every point. -/
theorem blk_w2 (c : Dev nD) (t : Fin cfg1.N) : iblk1 V c 3 t = V c main_v16 := by
  funext y
  show V c main_v16 (((cfg1.win 3).blk t).view.emb y) = _
  refine congrArg (V c main_v16) ?_
  obtain ⟨-, -, -, -, -, -, e0, e1, -⟩ := idx_facts t
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias row is read whole at every point. -/
theorem blk_b (c : Dev nD) (t : Fin cfg1.N) : iblk1 V c 4 t = V c main_v10 := by
  funext y
  show V c main_v10 (((cfg1.win 4).blk t).view.emb y) = _
  refine congrArg (V c main_v10) ?_
  obtain ⟨-, -, -, -, -, -, -, -, e0, e1, -⟩ := idx_facts t
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Element (p, q) of the output's block t is element (5000·t + p, q) of the result array. -/
theorem emb_out (t : Fin cfg1.N) (p : Fin 5000) (q : Fin 128) :
    ((cfg1.win 5).blk t).view.emb (ix2 p q) = (ix2 ⟨5000 * t.val + p.val, row_lt t p⟩ q : S50000x128.Idx) := by
  obtain ⟨-, -, -, -, -, -, -, -, -, -, e0, e1⟩ := idx_facts t
  funext a; apply Fin.ext
  match a with
  | ⟨0, _⟩ => show win1_5.index t (0 : Fin 2) * 5000 + 1 * p.val = 5000 * t.val + p.val; omega
  | ⟨1, _⟩ => show win1_5.index t (1 : Fin 2) * 128 + 1 * q.val = q.val; omega

/-- The payload over one point's blocks, at every element of the block, is the result function read through the block. -/
theorem block_eq (x0 x1 : Vec Ideal S5000x128 .f32) (x2 x3 : Vec Ideal S128x128 .f32) (x4 : Vec Ideal S1x128 .f32)
    (G : S50000x128.Idx → EReal) (em : S5000x128.Idx → S50000x128.Idx)
    (h : ∀ (p : Fin 5000) (q : Fin 128),
      combTerm (fun k => x0 (ix2 p k)) (fun k => x1 (ix2 p k)) x2 x3 (x4 (ix2 (0 : Fin 1) q)) q = G (em (ix2 p q)))
    (j : S5000x128.Idx) : k1_pay1 (F := Ideal) x0 x1 x2 x3 x4 j = G (em j) := by
  obtain ⟨p, q, rfl⟩ : ∃ (p : Fin 5000) (q : Fin 128), j = ix2 p q := ⟨j 0, j 1, eq_ix2 j⟩
  rw [Cert.Proof.CombineBody.combine_payload]
  exact h p q

/-- What point t writes back is block t of the result function of the entry arrays. -/
theorem flushed_eq (c : Dev nD) (t : Fin cfg1.N) :
    (dat1 V c).flushed 5 t = ((cfg1.win 5).blk t).view.read (Elt Ideal)
      (outOf (V c main_arg1) (V c main_v14) (V c main_v15) (V c main_v16) (V c main_v10)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  show k1_pay1 (F := Ideal) (iblk1 V c 0 t) (iblk1 V c 1 t) (iblk1 V c 2 t) (iblk1 V c 3 t) (iblk1 V c 4 t) j
    = outOf (V c main_arg1) (V c main_v14) (V c main_v15) (V c main_v16) (V c main_v10) (((cfg1.win 5).blk t).view.emb j)
  refine block_eq (iblk1 V c 0 t) (iblk1 V c 1 t) (iblk1 V c 2 t) (iblk1 V c 3 t) (iblk1 V c 4 t) _ _ ?_ j
  intro p q
  rw [emb_out t p q, outOf_apply, blk_w1 V c t, blk_w2 V c t, blk_b V c t]
  simp only [blk_xn V c t p, blk_xi V c t p]

/-- An index of the result array is in point t's block iff its row is among the block's 5000 rows. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v17).slice (win1_5.rect t)).set ↔ _
  rw [View.set_slice_whole, Rect.mem_set_unit]
  exact Iff.rfl

/-- Every element of the result array lies in the block of the point its row names. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 5000, by show (i 0).val / 5000 < 10; omega⟩
  have htv : t.val = (i 0).val / 5000 := rfl
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After the call the result array holds the result function of the entry arrays. -/
theorem final (c : Dev nD) :
    (dat1 V c).arrAt 5 cfg1.N = outOf (V c main_arg1) (V c main_v14) (V c main_v15) (V c main_v16) (V c main_v10) :=
  (dat1 V c).arrAt_eq_of_cover 5 _ (fun t _ => flushed_eq V c t) cover

end Cert.Proof.CombineArray

end
-- ==== Proof.HostEntry.lean ====
/-
  What each call is entered with, and what the program ends with, as terms of the launch memory.

  Before the first call the program gathers each edge's source node type (the source index wrapped if negative, then
  clamped by the gather) and re-lays the distance vector, the node-type vector and the two bias vectors as columns and
  rows; the first call reads those and three arguments as launched. Between the calls it scatter-adds the message
  array's rows into a zero array at the destination indices and cuts the combining weight into its two column halves;
  the second call reads those, the node features as launched and the second bias row. So the result buffer ends at
  the second call's function of: the node features, the scatter-add of the first call's function of the launch
  arrays, the two weight halves and the bias row.
-/
import proofs.«417579_j39651138076968_1_alg».proof.Proof.Gen.KernelIdeal.Frame
import proofs.«417579_j39651138076968_1_alg».proof.Proof.EdgeArray
import proofs.«417579_j39651138076968_1_alg».proof.Proof.CombineArray
import Idealize.ShloMosaic.Lib.StableHlo.Run

set_option maxRecDepth 16384

noncomputable section

namespace Cert.Proof.HostEntry

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first call's entry arrays -/

theorem V1_arg4 (c : Dev nD) : (V1 m ρ c main_arg4 : S600000x50.Idx → EReal) = m ((c : Thread nD τ).loc main_arg4) := by
  show StableHlo.after hostOps0 _ (Proc.devRef .tc main_arg4) = _
  after_results

theorem V1_arg7 (c : Dev nD) : (V1 m ρ c main_arg7 : S128x50.Idx → EReal) = m ((c : Thread nD τ).loc main_arg7) := by
  show StableHlo.after hostOps0 _ (Proc.devRef .tc main_arg7) = _
  after_results

theorem V1_arg6 (c : Dev nD) : (V1 m ρ c main_arg6 : S100x128.Idx → EReal) = m ((c : Thread nD τ).loc main_arg6) := by
  show StableHlo.after hostOps0 _ (Proc.devRef .tc main_arg6) = _
  after_results

/-- The distance vector as a column. -/
theorem V1_v8 (c : Dev nD) : (V1 m ρ c main_v8 : S600000x1.Idx → EReal)
    = shapeCast S600000x1 (m ((c : Thread nD τ).loc main_arg5)) shapeCasts_S600000_S600000x1 := by
  show StableHlo.after hostOps0 _ (Proc.devRef .tc main_v8) = _
  after_results
  rfl

/-- The first bias vector as a row. -/
theorem V1_v9 (c : Dev nD) : (V1 m ρ c main_v9 : S1x128.Idx → EReal)
    = shapeCast S1x128 (m ((c : Thread nD τ).loc main_arg8)) shapeCasts_S128_S1x128 := by
  show StableHlo.after hostOps0 _ (Proc.devRef .tc main_v9) = _
  after_results
  rfl

/-- The source indices, a negative one wrapped by the number of nodes. -/
def srcWrapped (src : IVec S600000 32) : IVec S600000 32 :=
  select (cmpi .slt src (broadcastInDim S600000 ![] bcast_S_S600000 (constantI S_ 32 0#32)))
    (addi src (broadcastInDim S600000 ![] bcast_S_S600000 (constantI S_ 32 50000#32))) src

/-- Each edge's source node type, as a column: the node types gathered at the wrapped source indices. -/
def srcTypes (nt : IVec S50000 32) (src : IVec S600000 32) : IVec S600000x1 32 :=
  shapeCast S600000x1 (Host.gather gather_S50000_S600000x1_S600000_n_0_n_n_0_1_1 nt
    (broadcastInDim S600000x1 ![0] bcast_S600000_S600000x1_0 (srcWrapped src))) shapeCasts_S600000_S600000x1

theorem V1_v7 (c : Dev nD) : (V1 m ρ c main_v7 : S600000x1.Idx → BitVec 32)
    = srcTypes (m ((c : Thread nD τ).loc main_arg0)) (m ((c : Thread nD τ).loc main_arg2)) := by
  show StableHlo.after hostOps0 _ (Proc.devRef .tc main_v7) = _
  after_results
  rfl

/-- The message array after the first call, as a function of the launch arrays. -/
def msgK (c : Dev nD) : S600000x128.Idx → EReal :=
  Cert.Proof.EdgeArray.msgOf (m ((c : Thread nD τ).loc main_arg4))
    (shapeCast S600000x1 (m ((c : Thread nD τ).loc main_arg5)) shapeCasts_S600000_S600000x1)
    (srcTypes (m ((c : Thread nD τ).loc main_arg0)) (m ((c : Thread nD τ).loc main_arg2)))
    (m ((c : Thread nD τ).loc main_arg7))
    (shapeCast S1x128 (m ((c : Thread nD τ).loc main_arg8)) shapeCasts_S128_S1x128)
    (m ((c : Thread nD τ).loc main_arg6))

theorem W2_v11 (c : Dev nD) : (W2 m ρ c (Proc.devRef .tc main_v11) : S600000x128.Idx → EReal) = msgK m c := by
  rw [show W2 m ρ c (Proc.devRef .tc main_v11) = (dat0 (V1 m ρ) c).arrAt 6 cfg0.N from W2_arr m ρ c 6]
  rw [Cert.Proof.EdgeArray.final (V1 m ρ) c, V1_arg4, V1_v8, V1_v7, V1_arg7, V1_v9, V1_arg6]
  rfl

/-! ## The second call's entry arrays -/

theorem W2_arg (b : Ref sig .tc) (hb : ∀ w, Pipeline.arrRef spec0 w ≠ b) (c : Dev nD) :
    W2 m ρ c (Proc.devRef .tc b) = StableHlo.after hostOps0 (W0 m ρ c) (Proc.devRef .tc b) := W2_of_ne m ρ c b hb

theorem V3_arg1 (c : Dev nD) : (V3 m ρ c main_arg1 : S50000x128.Idx → EReal) = m ((c : Thread nD τ).loc main_arg1) := by
  have h1 : (V3 m ρ c main_arg1 : S50000x128.Idx → EReal) = W2 m ρ c (Proc.devRef .tc main_arg1) := by
    show StableHlo.after hostOps1 _ (Proc.devRef .tc main_arg1) = _
    after_results
  rw [h1, W2_arg m ρ main_arg1 (by decide) c]
  after_results

/-- The second bias vector as a row (written before the first call, untouched since). -/
theorem V3_v10 (c : Dev nD) : (V3 m ρ c main_v10 : S1x128.Idx → EReal)
    = shapeCast S1x128 (m ((c : Thread nD τ).loc main_arg10)) shapeCasts_S128_S1x128 := by
  have h1 : (V3 m ρ c main_v10 : S1x128.Idx → EReal) = W2 m ρ c (Proc.devRef .tc main_v10) := by
    show StableHlo.after hostOps1 _ (Proc.devRef .tc main_v10) = _
    after_results
  rw [h1, W2_arg m ρ main_v10 (by decide) c]
  after_results
  rfl

/-- The first column half of the combining weight. -/
theorem V3_v15 (c : Dev nD) : (V3 m ρ c main_v15 : S128x128.Idx → EReal)
    = extractStridedSlice S128x128 ![0, 0] (m ((c : Thread nD τ).loc main_arg9)) slices_S128x256_S128x128_0_0 := by
  have h1 : (V3 m ρ c main_v15 : S128x128.Idx → EReal)
      = extractStridedSlice S128x128 ![0, 0] (W2 m ρ c (Proc.devRef .tc main_arg9)) slices_S128x256_S128x128_0_0 := by
    show StableHlo.after hostOps1 _ (Proc.devRef .tc main_v15) = _
    after_results
  rw [h1, W2_arg m ρ main_arg9 (by decide) c]
  congr 1

/-- The second column half of the combining weight. -/
theorem V3_v16 (c : Dev nD) : (V3 m ρ c main_v16 : S128x128.Idx → EReal)
    = extractStridedSlice S128x128 ![0, 128] (m ((c : Thread nD τ).loc main_arg9)) slices_S128x256_S128x128_0_128 := by
  have h1 : (V3 m ρ c main_v16 : S128x128.Idx → EReal)
      = extractStridedSlice S128x128 ![0, 128] (W2 m ρ c (Proc.devRef .tc main_arg9)) slices_S128x256_S128x128_0_128 := by
    show StableHlo.after hostOps1 _ (Proc.devRef .tc main_v16) = _
    after_results
  rw [h1, W2_arg m ρ main_arg9 (by decide) c]
  congr 1

/-- The aggregated messages: the message array's rows scatter-added into zeros at the destination indices. -/
def aggK (c : Dev nD) : S50000x128.Idx → EReal :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 (m ((c : Thread nD τ).loc main_arg3)))
    (msgK m c)

theorem V3_v14 (c : Dev nD) : (V3 m ρ c main_v14 : S50000x128.Idx → EReal) = aggK m c := by
  have h1 : (V3 m ρ c main_v14 : S50000x128.Idx → EReal)
      = Host.scatterAdd scatter_S50000x128_S600000x1_S600000x128_1_0_0_1
          (broadcastInDim S50000x128 ![] bcast_S_S50000x128 (constant (F := Ideal) S_ .f32 0x00000000#32))
          (broadcastInDim S600000x1 ![0] bcast_S600000_S600000x1_0 (W2 m ρ c (Proc.devRef .tc main_arg3)))
          (W2 m ρ c (Proc.devRef .tc main_v11)) := by
    show StableHlo.after hostOps1 _ (Proc.devRef .tc main_v14) = _
    after_results
  rw [h1, W2_v11, W2_arg m ρ main_arg3 (by decide) c]
  unfold aggK
  congr 2

/-! ## The result -/

/-- The program's result as a function of the launch arrays. -/
def kernelValue (c : Dev nD) : S50000x128.Idx → EReal :=
  Cert.Proof.CombineArray.outOf (m ((c : Thread nD τ).loc main_arg1)) (aggK m c)
    (extractStridedSlice S128x128 ![0, 0] (m ((c : Thread nD τ).loc main_arg9)) slices_S128x256_S128x128_0_0)
    (extractStridedSlice S128x128 ![0, 128] (m ((c : Thread nD τ).loc main_arg9)) slices_S128x256_S128x128_0_128)
    (shapeCast S1x128 (m ((c : Thread nD τ).loc main_arg10)) shapeCasts_S128_S1x128)

/-- The last boundary's contents at the result buffer are that function. -/
theorem W4_result (c : Dev nD) : (W4 m ρ c (Proc.devRef .tc main_v17) : S50000x128.Idx → EReal) = kernelValue m c := by
  rw [show W4 m ρ c (Proc.devRef .tc main_v17) = (dat1 (V3 m ρ) c).arrAt 5 cfg1.N from W4_arr m ρ c 5]
  rw [Cert.Proof.CombineArray.final (V3 m ρ) c, V3_arg1, V3_v14, V3_v15, V3_v16, V3_v10]
  rfl

end Cert.Proof.HostEntry

end
-- ==== Proof.EntryReads.lean ====
/-
  The re-laid entry arrays read at one element.

  A vector kept as a column or as a row reads, at its one free coordinate, the vector there. A column half of the
  combining weight reads the weight at the same row and the column shifted by the half's offset. Each edge's source
  node type is the node-type vector at the edge's wrapped source index, clamped into the vector.
-/
import proofs.«417579_j39651138076968_1_alg».proof.Proof.HostEntry
import Idealize.ShloMosaic.Lib.Pipeline.Value
import Idealize.ShloMosaic.Lib.ValueIdx
import Idealize.ShloMosaic.Lib.StableHlo.Predicate
import Idealize.ShloMosaic.Lib.SortFacts
import Idealize.ShloMosaic.Lib.Affine

set_option maxRecDepth 16384

noncomputable section

namespace Cert.Proof.EntryReads

open Cert.KernelIdeal Cert.KernelIdeal.Gen Cert.Proof.HostEntry
open Idealize.ShloMosaic Idealize.ShloMosaic.ValueIdx

/-- A 600000-vector kept as a column, at row e. -/
theorem col_apply {α : Type} (v : S600000.Idx → α) (e : Fin 600000) :
    shapeCast S600000x1 v shapeCasts_S600000_S600000x1 (ix2 e (0 : Fin 1)) = v (ix1 e) := by
  refine shapeCast_apply v shapeCasts_S600000_S600000x1 (ix2 e (0 : Fin 1)) (ix1 e) ?_
  rw [Shape.rowMajor_val_two, Shape.rowMajor_val_one]
  show e.val = e.val * 1 + 0
  omega

/-- A 128-vector kept as a row, at column q. -/
theorem row_apply {α : Type} (v : S128.Idx → α) (q : Fin 128) :
    shapeCast S1x128 v shapeCasts_S128_S1x128 (ix2 (0 : Fin 1) q) = v (ix1 q) := by
  refine shapeCast_apply v shapeCasts_S128_S1x128 (ix2 (0 : Fin 1) q) (ix1 q) ?_
  rw [Shape.rowMajor_val_two, Shape.rowMajor_val_one]
  show q.val = 0 * 128 + q.val
  omega

/-- The first column half of the weight, at (q, k). -/
theorem half0_apply {α : Type} (x : S128x256.Idx → α) (q k : Fin 128) :
    extractStridedSlice S128x128 ![0, 0] x slices_S128x256_S128x128_0_0 (ix2 q k) = x (ix2 q (⟨k.val, by omega⟩ : Fin 256)) := by
  refine extractStridedSlice_apply ![0, 0] x slices_S128x256_S128x128_0_0 (ix2 q k) (ix2 q (⟨k.val, by omega⟩ : Fin 256)) ?_
  intro a
  match a with
  | ⟨0, _⟩ => show q.val = 0 + q.val; omega
  | ⟨1, _⟩ => show k.val = 0 + k.val; omega

/-- The second column half of the weight, at (q, k). -/
theorem half1_apply {α : Type} (x : S128x256.Idx → α) (q k : Fin 128) :
    extractStridedSlice S128x128 ![0, 128] x slices_S128x256_S128x128_0_128 (ix2 q k) = x (ix2 q (⟨128 + k.val, by omega⟩ : Fin 256)) := by
  refine extractStridedSlice_apply ![0, 128] x slices_S128x256_S128x128_0_128 (ix2 q k) (ix2 q (⟨128 + k.val, by omega⟩ : Fin 256)) ?_
  intro a
  match a with
  | ⟨0, _⟩ => show q.val = 0 + q.val; omega
  | ⟨1, _⟩ => show 128 + k.val = 128 + k.val; rfl

/-- The wrapped source index of edge e. -/
theorem srcWrapped_apply (src : IVec S600000 32) (e : Fin 600000) :
    srcWrapped src (ix1 e) = if (src (ix1 e)).toInt < 0 then src (ix1 e) + 50000#32 else src (ix1 e) := by
  show Scalar.select (IntOp.cmpi .slt (src (ix1 e)) (0#32)) (src (ix1 e) + 50000#32) (src (ix1 e)) = _
  unfold Scalar.select
  refine if_congr ?_ rfl rfl
  refine IntOp.cmpi_slt.trans ?_
  rw [show (0#32 : BitVec 32).toInt = 0 from by decide]

/-- The two spellings of a rank-1 index. -/
theorem ofFin_eq_ix1 {n : Nat} (k : Fin n) : Shape.Idx.ofFin k = ix1 k := by
  funext d
  have hd : d = 0 := Subsingleton.elim _ _
  subst hd
  exact Shape.Idx.ofFin_zero k

/-- The clamped row of the node-type vector that edge e's wrapped source index names. -/
def srcRow (src : IVec S600000 32) (e : Fin 600000) : Fin 50000 :=
  ⟨min (srcWrapped src (ix1 e)).toInt.toNat (50000 - 1), by omega⟩

/-- Edge e's source node type is the node-type vector at that row. -/
theorem srcTypes_apply (nt : IVec S50000 32) (src : IVec S600000 32) (e : Fin 600000) :
    srcTypes nt src (ix2 e (0 : Fin 1)) = nt (ix1 (srcRow src e)) := by
  unfold srcTypes
  rw [col_apply]
  have h := StableHlo.Predicate.gather_take gather_S50000_S600000x1_S600000_n_0_n_n_0_1_1 rfl rfl rfl rfl nt
    (broadcastInDim S600000x1 ![0] bcast_S600000_S600000x1_0 (srcWrapped src)) e (by omega)
  rw [ofFin_eq_ix1, ofFin_eq_ix1] at h
  refine h.trans ?_
  refine congrArg nt (congrArg ix1 (Fin.ext ?_))
  show min ((broadcastInDim S600000x1 ![0] bcast_S600000_S600000x1_0 (srcWrapped src)) (StableHlo.Predicate.ixP e)).toInt.toNat (50000 - 1) = min (srcWrapped src (ix1 e)).toInt.toNat (50000 - 1)
  rw [broadcastInDim_apply ![0] bcast_S600000_S600000x1_0 (srcWrapped src) (StableHlo.Predicate.ixP e) (ix1 e) (by
    intro a
    have ha : a = 0 := Subsingleton.elim _ _
    subst ha
    rfl)]

end Cert.Proof.EntryReads

end
-- ==== Proof.LibRowGatherScatter.lean ====
/-
  A host gather of whole rows and a host scatter-add of whole rows, read at one element.

  `table[idx]` over an [N × C] table with an [E × 1] column of start indices prints as a `stablehlo.gather` whose
  row axis is collapsed and start-indexed and whose column axis is the one offset axis: result row `e` is the table's
  row at `idx e` read signed and clamped into the table.

  `zeros.at[idx].add(upd)` over rows prints as a `stablehlo.scatter` with an `add` body whose row axis is inserted and
  scatter-indexed and whose column axis is the one update-window axis: at the extended reals element (i, q) ends at its
  old value plus the sum of `upd (e, q)` over the rows `e` whose index word reads `i` as a signed integer; a row whose
  index leaves the operand contributes nothing.
-/
import Idealize.ShloMosaic.PureOps.Ideal
import Idealize.ShloMosaic.Lib.ValueIdx

noncomputable section

namespace Cert.Gcn

open Idealize.ShloMosaic Idealize.ShloMosaic.ValueIdx

/-- Result element (e, q) of a row gather is the table's element (row, q), `row` the start index of `e` read signed and
    clamped into `[0, N − 1]`. -/
theorem gather_rows {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q) = x (ix2 ⟨min (idx (ix2 e (0 : Fin 1))).toInt.toNat (N - 1), by omega⟩ q) := by
  unfold Host.gather
  congr 1
  funext a
  apply Fin.ext
  have hb : ∀ a : Fin 2, a ∉ d.operandBatchingDims := fun a => by rw [hob]; exact List.not_mem_nil
  -- the result's one batch axis is axis 0, its one offset axis is axis 1
  have he : ∀ X : Fin 2, X ∈ d.batchDims → ((ix2 e q : (⟨2, ![E, C]⟩ : Shape).Idx) X).val = e.val := by
    intro X hX
    have hX' : X ∈ (⟨2, ![E, C]⟩ : Shape).kept [1] := by rw [← hoff]; exact hX
    have h0 : X = 0 := by
      simp [Shape.kept, List.mem_filter] at hX'
      omega
    subst h0; rfl
  have hq : ∀ X : Fin 2, X ∈ d.offsetDims → ((ix2 e q : (⟨2, ![E, C]⟩ : Shape).Idx) X).val = q.val := by
    intro X hX
    rw [hoff] at hX
    obtain rfl := List.mem_singleton.1 hX
    rfl
  match a with
  | ⟨0, _⟩ =>
    -- the row axis: start-indexed and collapsed, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact he _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: not start-indexed, kept, so the result's coordinate on the offset axis
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (List.getElem_mem _)

/-- Element (i, q) after a row scatter-add at the extended reals: the old value plus the updates of the rows sent to `i`. -/
theorem scatterAdd_rows {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (q : Fin C) :
    (Host.scatterAdd (F := Ideal) (φ := .f32) d x idx upd : (⟨2, ![N, C]⟩ : Shape).Idx → EReal) (ix2 i q)
      = x (ix2 i q) + ∑ e ∈ Finset.univ.filter (fun e : Fin E => (idx (ix2 e (0 : Fin 1))).toInt = (i.val : ℤ)), upd (ix2 e q) := by
  -- the updates' one scatter axis is axis 0
  have hus : ∀ X : Fin 2, X ∈ d.uScatter → X = 0 := by
    intro X hX
    have hX' : X ∈ (⟨2, ![E, C]⟩ : Shape).kept [1] := by rw [← huw]; exact hX
    simp [Shape.kept, List.mem_filter] at hX'
    omega
  -- the row axis starts at the row's index word read signed, with no window coordinate (it is inserted)
  have hs0 : ∀ j : (⟨2, ![E, C]⟩ : Shape).Idx, d.start j idx 0 = (idx (ix2 (j 0) (0 : Fin 1))).toInt := by
    intro j
    have hm : (0 : Fin 2) ∈ d.scatterDimsToOperandDims := by rw [hsd]; exact List.mem_singleton.mpr rfl
    have e0 : ∀ X : Fin 2, X ∈ d.uScatter → (j X).val = (j 0).val := fun X hX => by rw [hus X hX]
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact e0 _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hw0 : ∀ j : (⟨2, ![E, C]⟩ : Shape).Idx, d.window j 0 = 0 := by
    intro j
    have hk : (0 : Fin 2) ∉ d.sKept := by simp [ScatterDims.sKept, Shape.kept, hiw]
    unfold ScatterDims.window
    rw [dif_neg hk]
  -- the column axis starts at 0 (the map does not name it), its window coordinate the update's column
  have hs1 : ∀ j : (⟨2, ![E, C]⟩ : Shape).Idx, d.start j idx 1 = 0 := by
    intro j
    have hm : (1 : Fin 2) ∉ d.scatterDimsToOperandDims := by rw [hsd]; simp
    unfold ScatterDims.start
    rw [dif_neg hm]
  have hw1 : ∀ j : (⟨2, ![E, C]⟩ : Shape).Idx, d.window j 1 = (j 1).val := by
    intro j
    have hk : (1 : Fin 2) ∈ d.sKept := by simp [ScatterDims.sKept, Shape.kept, hiw]
    have e1 : ∀ X : Fin 2, X ∈ d.updateWindowDims → (j X).val = (j 1).val := fun X hX => by
      rw [huw] at hX
      rw [List.mem_singleton.1 hX]
    unfold ScatterDims.window
    rw [dif_pos hk]
    exact e1 _ (List.getElem_mem _)
  -- an update lands at (i, q) exactly when its row's index word reads i and its column is q
  have key : ∀ j : (⟨2, ![E, C]⟩ : Shape).Idx, d.resultIdx? j idx = some (ix2 i q) ↔
      (idx (ix2 (j 0) (0 : Fin 1))).toInt = (i.val : ℤ) ∧ j 1 = q := by
    intro j
    unfold ScatterDims.resultIdx?
    constructor
    · intro h
      split at h
      · rename_i hr
        have hf := Option.some.inj h
        have h0 : (d.start j idx 0 + d.window j 0).toNat = i.val := congrArg Fin.val (congrFun hf 0)
        have h1 : (d.start j idx 1 + d.window j 1).toNat = q.val := congrArg Fin.val (congrFun hf 1)
        have r0 := (hr 0).1
        rw [hs0, hw0] at h0 r0
        rw [hs1, hw1] at h1
        exact ⟨by omega, Fin.ext (by omega)⟩
      · exact absurd h (by simp)
    · rintro ⟨h0, h1⟩
      have hr : ∀ a, 0 ≤ d.start j idx a + d.window j a ∧
          d.start j idx a + d.window j a < (⟨2, ![N, C]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
        | ⟨1, _⟩ =>
          show 0 ≤ d.start j idx 1 + d.window j 1 ∧ d.start j idx 1 + d.window j 1 < (C : ℤ)
          rw [hs1, hw1]
          have := idx2_lt1 j
          omega
      rw [dif_pos hr]
      congr 1
      funext a
      match a with
      | ⟨0, _⟩ =>
        apply Fin.ext
        show (d.start j idx 0 + d.window j 0).toNat = i.val
        rw [hs0, hw0, h0]
        omega
      | ⟨1, _⟩ =>
        apply Fin.ext
        show (d.start j idx 1 + d.window j 1).toNat = q.val
        rw [hs1, hw1, ← h1]
        omega
  show Ideal.hostScatterAdd d x idx upd (ix2 i q) = _
  unfold Ideal.hostScatterAdd
  congr 1
  -- re-index the updates landing at (i, q) by their row
  refine Finset.sum_bij' (fun j _ => (j 0 : Fin E)) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    have hq := ((key j).1 (Finset.mem_filter.1 hj).2).2
    rw [← hq]
    exact (eq_ix2 j).symm
  · intro e _
    rfl
  · intro j hj
    have hq := ((key j).1 (Finset.mem_filter.1 hj).2).2
    rw [← hq]
    exact congrArg upd (eq_ix2 j)

end Cert.Gcn

end
-- ==== Proof.RefStages.lean ====
/-
  Two stages of the reference program read at one element, at the extended reals.

  The message stage: element (e, q) of the per-edge message is the node-type embedding row of the edge's source node
  (two row gathers, each index wrapped when negative and then clamped into its table) times the edge's linear filter
  (a contraction over the 50 radial features plus a bias) times the edge's cosine cutoff envelope.

  The result stage: element (n, q) of the output is a contraction over 256 features of the node's own features joined
  with its aggregated messages, plus a bias; the joined contraction splits into the two halves.
-/
import proofs.«417579_j39651138076968_1_alg».proof.Proof.Gen.ReferenceIdeal.Read
import proofs.«417579_j39651138076968_1_alg».proof.Proof.LibRowGatherScatter
import Mathlib.Algebra.BigOperators.Fin

noncomputable section

namespace Cert.Proof.RefStages

open Cert.ReferenceIdeal Cert.ReferenceIdeal.Gen Cert.ReferenceIdeal.Read Idealize.ShloMosaic Idealize.ShloMosaic.ValueIdx

/-! ## The message stage -/

/-- An index word wrapped as array indexing wraps it: a negative word has the axis length added. -/
def normIdx (n : Nat) (w : BitVec 32) : BitVec 32 := if w.toInt < 0 then w + BitVec.ofNat 32 n else w

/-- The row of the node table edge e reads: its source index wrapped, read signed and clamped into the 50000 rows. -/
def srcRow (x2 : IVec S600000 32) (e : Fin 600000) : Fin 50000 :=
  ⟨min (normIdx 50000 (x2 (ix1 e))).toInt.toNat 49999, by omega⟩

/-- The row of the embedding table edge e reads: its source node's type wrapped, read signed and clamped into the 100
    rows. -/
def ntRow (x0 : IVec S50000 32) (x2 : IVec S600000 32) (e : Fin 600000) : Fin 100 :=
  ⟨min (normIdx 100 (x0 (ix1 (srcRow x2 e)))).toInt.toNat 99, by omega⟩

/-- "Select the word plus n where the word is below zero, else the word" is the wrap. -/
theorem select_slt_zero (n : Nat) (w : BitVec 32) :
    Scalar.select (IntOp.cmpi .slt w 0#32) (IntOp.addi w (BitVec.ofNat 32 n)) w = normIdx n w := by
  unfold Scalar.select IntOp.cmpi IntOp.addi normIdx
  by_cases h : w.toInt < 0
  · have hs : w.slt 0#32 = true := by simp [BitVec.slt, h]
    rw [if_pos h]
    simp only [hs]
    rfl
  · have hs : w.slt 0#32 = false := by simp [BitVec.slt, h]
    rw [if_neg h]
    simp only [hs]
    rfl

/-! ### Indices by coordinates -/

theorem idx_v31_ix (e : Fin 600000) : idx_main_v31 (ix2 e (0 : Fin 1)) = ix1 e := by
  funext a; match a with | ⟨0, _⟩ => rfl

theorem idx_v5_ix (n : Fin 50000) : idx_main_v5 (ix2 n (0 : Fin 1)) = ix1 n := by
  funext a; match a with | ⟨0, _⟩ => rfl

theorem idx_v24_ix (e : Fin 600000) (q : Fin 128) : idx_main_v24 (ix2 e q) = ix2 e (0 : Fin 1) := by
  funext a; match a with | ⟨0, _⟩ => rfl | ⟨1, _⟩ => rfl

theorem idx_v23_ix (e : Fin 600000) : idx_main_v23 (ix2 e (0 : Fin 1)) = ix1 e := by
  funext a; match a with | ⟨0, _⟩ => rfl

theorem idx_v10_ix (e : Fin 600000) (q : Fin 128) : idx_main_v10 (ix2 e q) = ix2 (0 : Fin 1) q := by
  funext a; match a with | ⟨0, _⟩ => rfl | ⟨1, _⟩ => rfl

theorem idx_v9_ix (q : Fin 128) : idx_main_v9 (ix2 (0 : Fin 1) q) = ix1 q := by
  funext a; match a with | ⟨0, _⟩ => rfl

theorem lidx_v8_ix (e : Fin 600000) (q : Fin 128) (k : Fin 50) : lidx_main_v8 (ix2 e q) k = ix2 e k := by
  funext a; match a with | ⟨0, _⟩ => rfl | ⟨1, _⟩ => rfl

theorem ridx_v8_ix (e : Fin 600000) (q : Fin 128) (k : Fin 50) : ridx_main_v8 (ix2 e q) k = ix2 k q := by
  funext a; match a with | ⟨0, _⟩ => rfl | ⟨1, _⟩ => rfl

theorem idx_v7_ix (k : Fin 50) (q : Fin 128) : idx_main_v7 (ix2 k q) = ix2 q k := by
  funext a; match a with | ⟨0, _⟩ => rfl | ⟨1, _⟩ => rfl

/-! ### The two index columns -/

/-- The source-index column at row e is edge e's source index, wrapped. -/
theorem v31_col (x2 : IVec S600000 32) (e : Fin 600000) :
    val_main_v31 (F := Ideal) x2 (ix2 e (0 : Fin 1)) = normIdx 50000 (x2 (ix1 e)) := by
  rw [val_main_v31_apply, idx_v31_ix, val_main_v30_apply, val_main_v27_apply, val_main_v29_apply,
    val_main_v26_apply, val_main_v28_apply, val_main_c_4_apply, val_main_c_5_apply]
  exact select_slt_zero 50000 _

/-- The node-type column at row n is node n's type, wrapped. -/
theorem v5_col (x0 : IVec S50000 32) (n : Fin 50000) :
    val_main_v5 (F := Ideal) x0 (ix2 n (0 : Fin 1)) = normIdx 100 (x0 (ix1 n)) := by
  rw [val_main_v5_apply, idx_v5_ix, val_main_v4_apply, val_main_v1_apply, val_main_v3_apply,
    val_main_v0_apply, val_main_v2_apply, val_main_c_apply, val_main_c_0_apply]
  exact select_slt_zero 100 _

/-! ### The two row gathers -/

/-- The per-node embedding: row n is the embedding table's row at node n's wrapped, clamped type. -/
theorem v6_apply (x0 : IVec S50000 32) (x6 : FVec Ideal S100x128 .f32) (n : Fin 50000) (q : Fin 128) :
    val_main_v6 (F := Ideal) x0 x6 (ix2 n q)
      = x6 (ix2 (⟨min (normIdx 100 (x0 (ix1 n))).toInt.toNat 99, by omega⟩ : Fin 100) q) := by
  unfold val_main_v6
  refine (Cert.Gcn.gather_rows (N := 100) (E := 50000) (C := 128) (w := 32)
    gather_S100x128_S50000x1_S50000x128_1_0_n_n_0_1_1128 rfl rfl rfl rfl rfl x6
    (val_main_v5 (F := Ideal) x0) n q (by decide)).trans ?_
  refine congrArg (fun r : Fin 100 => x6 (ix2 r q)) (Fin.ext ?_)
  show min (val_main_v5 (F := Ideal) x0 (ix2 n (0 : Fin 1))).toInt.toNat (100 - 1)
    = min (normIdx 100 (x0 (ix1 n))).toInt.toNat 99
  rw [v5_col]

/-- The per-edge embedding: row e is the per-node embedding's row at edge e's wrapped, clamped source. -/
theorem v32_apply (x0 : IVec S50000 32) (x2 : IVec S600000 32) (x6 : FVec Ideal S100x128 .f32)
    (e : Fin 600000) (q : Fin 128) :
    val_main_v32 (F := Ideal) x0 x2 x6 (ix2 e q) = x6 (ix2 (ntRow x0 x2 e) q) := by
  unfold val_main_v32
  refine (Cert.Gcn.gather_rows (N := 50000) (E := 600000) (C := 128) (w := 32)
    gather_S50000x128_S600000x1_S600000x128_1_0_n_n_0_1_1128 rfl rfl rfl rfl rfl (val_main_v6 (F := Ideal) x0 x6)
    (val_main_v31 (F := Ideal) x2) e q (by decide)).trans ?_
  have hrow : (⟨min (val_main_v31 (F := Ideal) x2 (ix2 e (0 : Fin 1))).toInt.toNat (50000 - 1), by omega⟩ : Fin 50000)
      = srcRow x2 e := by
    refine Fin.ext ?_
    show min (val_main_v31 (F := Ideal) x2 (ix2 e (0 : Fin 1))).toInt.toNat (50000 - 1)
      = min (normIdx 50000 (x2 (ix1 e))).toInt.toNat 49999
    rw [v31_col]
  refine (congrArg (fun r : Fin 50000 => val_main_v6 (F := Ideal) x0 x6 (ix2 r q)) hrow).trans ?_
  exact v6_apply x0 x6 (srcRow x2 e) q

/-! ### The filter and the envelope -/

/-- The edge's linear filter at output feature q: the 50 radial features against row q of the weight, plus the bias. -/
theorem v11_apply (x4 : FVec Ideal S600000x50 .f32) (x7 : FVec Ideal S128x50 .f32) (x8 : FVec Ideal S128 .f32)
    (e : Fin 600000) (q : Fin 128) :
    val_main_v11 (F := Ideal) x4 x7 x8 (ix2 e q)
      = (∑ k : Fin 50, x4 (ix2 e k) * x7 (ix2 q k)) + x8 (ix1 q) := by
  rw [val_main_v11_apply, val_main_v8_apply, val_main_v10_apply, idx_v10_ix, val_main_v9_apply, idx_v9_ix]
  show _ + _ = _ + _
  congr 1
  refine Finset.sum_congr rfl fun k _ => ?_
  rw [val_main_v7_apply, lidx_v8_ix, ridx_v8_ix, idx_v7_ix]

/-- The edge's cutoff envelope, the same for every feature: half of one plus the cosine of the scaled length, times the
    indicator of the length being below the cutoff. -/
theorem v24_apply (x5 : FVec Ideal S600000 .f32) (e : Fin 600000) (q : Fin 128) :
    val_main_v24 (F := Ideal) x5 (ix2 e q)
      = (Ideal.ofBits .f32 0x3F000000#32 * (Ideal.cos (x5 (ix1 e) * Ideal.ofBits .f32 0x3F20D97C#32) + Ideal.ofBits .f32 0x3F800000#32))
        * FloatOps.uitofp (F := Ideal) .f32 (FloatOps.cmpf (F := Ideal) .olt (x5 (ix1 e)) (Ideal.ofBits .f32 0x40A00000#32)) := by
  rw [val_main_v24_apply, idx_v24_ix, val_main_v23_apply, idx_v23_ix, val_main_v22_apply, val_main_v18_apply,
    val_main_v21_apply, val_main_v20_apply, val_main_v19_apply, val_main_cst_3_apply, val_main_v17_apply,
    val_main_cst_2_apply, val_main_v16_apply, val_main_v15_apply, val_main_cst_1_apply, val_main_v14_apply,
    val_main_v13_apply, val_main_v12_apply, val_main_cst_apply]
  rfl

/-- Message element (e, q): the source node's type embedding times the edge's filter times its envelope. -/
theorem msg_apply (x0 : IVec S50000 32) (x2 : IVec S600000 32) (x4 : FVec Ideal S600000x50 .f32)
    (x5 : FVec Ideal S600000 .f32) (x6 : FVec Ideal S100x128 .f32) (x7 : FVec Ideal S128x50 .f32)
    (x8 : FVec Ideal S128 .f32) (e : Fin 600000) (q : Fin 128) :
    val_main_v33 (F := Ideal) x0 x2 x4 x5 x6 x7 x8 (ix2 e q)
      = x6 (ix2 (ntRow x0 x2 e) q) * (((∑ k : Fin 50, x4 (ix2 e k) * x7 (ix2 q k)) + x8 (ix1 q))
          * ((Ideal.ofBits .f32 0x3F000000#32 * (Ideal.cos (x5 (ix1 e) * Ideal.ofBits .f32 0x3F20D97C#32) + Ideal.ofBits .f32 0x3F800000#32))
            * FloatOps.uitofp (F := Ideal) .f32 (FloatOps.cmpf (F := Ideal) .olt (x5 (ix1 e)) (Ideal.ofBits .f32 0x40A00000#32)))) := by
  rw [val_main_v33_apply, val_main_v25_apply, v32_apply, v11_apply, v24_apply]
  rfl

/-! ## The result stage -/

/-- The joined array's index of output element (n, q) at contraction position k. -/
theorem lidx_v39_ix (n : Fin 50000) (q : Fin 128) (k : Fin 256) :
    lidx_main_v39 (ix2 n q) k = ix2 n k := by
  funext a; match a with | ⟨0, _⟩ => rfl | ⟨1, _⟩ => rfl

/-- The transposed weight's index of output element (n, q) at contraction position k. -/
theorem ridx_v39_ix (n : Fin 50000) (q : Fin 128) (k : Fin 256) :
    ridx_main_v39 (ix2 n q) k = ix2 k q := by
  funext a; match a with | ⟨0, _⟩ => rfl | ⟨1, _⟩ => rfl

/-- The weight's index behind the transposed weight's (k, q). -/
theorem idx_v38_ix (k : Fin 256) (q : Fin 128) :
    idx_main_v38 (ix2 k q) = ix2 q k := by
  funext a; match a with | ⟨0, _⟩ => rfl | ⟨1, _⟩ => rfl

/-- The bias row's index behind the broadcast bias's (n, q). -/
theorem idx_v41_ix (n : Fin 50000) (q : Fin 128) :
    idx_main_v41 (ix2 n q) = ix2 (0 : Fin 1) q := by
  funext a; match a with | ⟨0, _⟩ => rfl | ⟨1, _⟩ => rfl

/-- The bias's index behind the bias row's (0, q). -/
theorem idx_v40_ix (q : Fin 128) :
    idx_main_v40 (ix2 (0 : Fin 1) q) = ix1 q := by
  funext a; match a with | ⟨0, _⟩ => rfl

/-- Output element (n, q): the joined features of node n contracted with row q of the weight, plus the bias. -/
theorem out_apply (x0 : IVec S50000 32) (x1 : FVec Ideal S50000x128 .f32) (x2 x3 : IVec S600000 32)
    (x4 : FVec Ideal S600000x50 .f32) (x5 : FVec Ideal S600000 .f32) (x6 : FVec Ideal S100x128 .f32)
    (x7 : FVec Ideal S128x50 .f32) (x8 : FVec Ideal S128 .f32) (x9 : FVec Ideal S128x256 .f32)
    (x10 : FVec Ideal S128 .f32) (n : Fin 50000) (q : Fin 128) :
    val_main_v42 (F := Ideal) x0 x1 x2 x3 x4 x5 x6 x7 x8 x9 x10 (ix2 n q)
      = (∑ k : Fin 256, (concatenate S50000x256 1 [⟨S50000x128, x1⟩, ⟨S50000x128, val_main_v36 (F := Ideal) x0 x2 x3 x4 x5 x6 x7 x8⟩]
            concatenates_S50000x128_S50000x128_S50000x256_d1 (ix2 n k)) * x9 (ix2 q k)) + x10 (ix1 q) := by
  rw [val_main_v42_apply, val_main_v39_apply, val_main_v41_apply, val_main_v40_apply, idx_v41_ix, idx_v40_ix]
  show _ + _ = _ + _
  congr 1
  refine Finset.sum_congr rfl fun k _ => ?_
  rw [val_main_v38_apply, lidx_v39_ix, ridx_v39_ix, idx_v38_ix]
  rfl

/-- The joined contraction split into the node's own features (positions below 128) and its aggregated messages
    (positions from 128 on). -/
theorem out_apply_split (x0 : IVec S50000 32) (x1 : FVec Ideal S50000x128 .f32) (x2 x3 : IVec S600000 32)
    (x4 : FVec Ideal S600000x50 .f32) (x5 : FVec Ideal S600000 .f32) (x6 : FVec Ideal S100x128 .f32)
    (x7 : FVec Ideal S128x50 .f32) (x8 : FVec Ideal S128 .f32) (x9 : FVec Ideal S128x256 .f32)
    (x10 : FVec Ideal S128 .f32) (n : Fin 50000) (q : Fin 128) :
    val_main_v42 (F := Ideal) x0 x1 x2 x3 x4 x5 x6 x7 x8 x9 x10 (ix2 n q)
      = ((∑ k : Fin 128, x1 (ix2 n k) * x9 (ix2 q ⟨k.val, by omega⟩))
          + (∑ k : Fin 128, val_main_v36 (F := Ideal) x0 x2 x3 x4 x5 x6 x7 x8 (ix2 n k) * x9 (ix2 q ⟨128 + k.val, by omega⟩)))
        + x10 (ix1 q) := by
  rw [out_apply]
  congr 1
  refine (Fin.sum_univ_add (a := 128) (b := 128) (fun k : Fin (128 + 128) =>
    (concatenate S50000x256 1 [⟨S50000x128, x1⟩, ⟨S50000x128, val_main_v36 (F := Ideal) x0 x2 x3 x4 x5 x6 x7 x8⟩]
      concatenates_S50000x128_S50000x128_S50000x256_d1 (ix2 n k)) * x9 (ix2 q k))).trans ?_
  refine congrArg₂ (· + ·) ?_ ?_
  · refine Finset.sum_congr rfl fun k _ => ?_
    refine congrArg (· * x9 (ix2 q ⟨k.val, by omega⟩)) ?_
    exact concatenate_pair_apply_left (t := S50000x256) (s₁ := S50000x128) (s₂ := S50000x128) (1 : Fin 2) x1
      (val_main_v36 (F := Ideal) x0 x2 x3 x4 x5 x6 x7 x8) concatenates_S50000x128_S50000x128_S50000x256_d1
      (ix2 n (Fin.castAdd 128 k)) rfl (ix2 n k)
      (fun b => match b with | ⟨0, _⟩ => rfl | ⟨1, _⟩ => rfl)
  · refine Finset.sum_congr rfl fun k _ => ?_
    refine congrArg (· * x9 (ix2 q ⟨128 + k.val, by omega⟩)) ?_
    exact concatenate_pair_apply_right (t := S50000x256) (s₁ := S50000x128) (s₂ := S50000x128) (1 : Fin 2) x1
      (val_main_v36 (F := Ideal) x0 x2 x3 x4 x5 x6 x7 x8) concatenates_S50000x128_S50000x128_S50000x256_d1
      (ix2 n (Fin.natAdd 128 k)) rfl rfl (ix2 n k)
      (fun b hb => match b, hb with
        | ⟨0, _⟩, _ => rfl
        | ⟨1, _⟩, hb => absurd rfl hb)
      (by show k.val + 128 = 128 + k.val; omega)

end Cert.Proof.RefStages

end
-- ==== Proof.Words.lean ====
/-
  Integer words read as extended reals, and the two index chains read at one edge.

  A one-bit word widened to 32 bits reads the same signed as the bit reads unsigned (0 or 1). A 0/1-weighted sum over
  the 100 rows of a table whose weight at row j is "the word equals j" is the table's entry at the word, when the word,
  read as a signed integer, lies in [0, 100): one weight is 1 and every other is 0, and 0 · x = 0 for every extended
  real x.
-/
import Idealize.ShloMosaic.PureOps.Ideal
import Idealize.ShloMosaic.Lib.ValueIdx

noncomputable section

namespace Cert.Proof.Words

open Idealize.ShloMosaic Idealize.ShloMosaic.ValueIdx

/-- A one-bit word, widened, read signed, is the bit read unsigned. -/
theorem bit_as_float (b : BitVec 1) :
    FloatOps.sitofp (F := Ideal) .f32 (b.setWidth 32) = FloatOps.uitofp (F := Ideal) .f32 b := by
  show (((b.setWidth 32).toInt : ℝ) : EReal) = ((b.toNat : ℝ) : EReal)
  have h : (b.setWidth 32).toInt = (b.toNat : ℤ) := by revert b; decide
  rw [h, Int.cast_natCast]

/-- A 32-bit word whose signed reading is in [0, 100) has that reading as its unsigned one. -/
theorem toNat_of_range (w : BitVec 32) (h0 : 0 ≤ w.toInt) (h1 : w.toInt < 100) : w.toNat < 100 ∧ w.toInt = (w.toNat : ℤ) := by
  have hc := BitVec.toInt_eq_toNat_cond w
  have hlt : w.toNat < 2 ^ 32 := w.isLt
  split at hc <;> omega

/-- The one-hot sum selects the table entry at the word. -/
theorem onehot_sum (w : BitVec 32) (h0 : 0 ≤ w.toInt) (h1 : w.toInt < 100) (f : Fin 100 → EReal) :
    ∑ j : Fin 100, FloatOps.sitofp (F := Ideal) .f32 ((IntOp.cmpi .eq w (BitVec.ofNat 32 j.val)).setWidth 32) * f j
      = f ⟨w.toNat, (toNat_of_range w h0 h1).1⟩ := by
  obtain ⟨hw, -⟩ := toNat_of_range w h0 h1
  rw [Finset.sum_eq_single (⟨w.toNat, hw⟩ : Fin 100)]
  · have h : IntOp.cmpi .eq w (BitVec.ofNat 32 w.toNat) = 1#1 := by
      simp [IntOp.cmpi]
    show FloatOps.sitofp (F := Ideal) .f32 ((IntOp.cmpi .eq w (BitVec.ofNat 32 w.toNat)).setWidth 32) * _ = _
    rw [h]
    show ((((1#1 : BitVec 1).setWidth 32).toInt : ℝ) : EReal) * _ = _
    have : ((1#1 : BitVec 1).setWidth 32).toInt = 1 := by decide
    rw [this]
    simp
  · intro j _ hj
    have h : IntOp.cmpi .eq w (BitVec.ofNat 32 j.val) = 0#1 := by
      have hne : w ≠ BitVec.ofNat 32 j.val := by
        intro h
        apply hj
        apply Fin.ext
        show j.val = w.toNat
        have := congrArg BitVec.toNat h
        simp at this
        have hj' := j.isLt
        omega
      have hb : (w == BitVec.ofNat 32 j.val) = false := by simpa using hne
      simp [IntOp.cmpi, hb]
    rw [h]
    show ((((0#1 : BitVec 1).setWidth 32).toInt : ℝ) : EReal) * _ = 0
    have : ((0#1 : BitVec 1).setWidth 32).toInt = 0 := by decide
    rw [this]
    simp
  · intro h
    exact absurd (Finset.mem_univ _) h

end Cert.Proof.Words

end
-- ==== Proof.Bridge.lean ====
/-
  The kernel program's value is the reference's, under the node types' range.

  Message (e, q). The kernel forms the embedding row by a 0/1-weighted sum over the table's 100 rows at the edge's
  source node type; the reference gathers the table at the node type (wrapped if negative, clamped), then gathers
  that at the source index. With every node type in [0, 100) the wrap and the clamp do nothing, exactly one weight is
  1, and both read the table's row at the node type of the (wrapped, clamped) source node. The projection, the bias,
  the cutoff and the mask are the same expressions of the same entries (the mask is a one-bit word read as 0 or 1 on
  both sides). So the two message arrays are equal, hence so are their scatter-adds at the same destination indices.

  Result (n, q). The reference contracts the 256 columns of [features | aggregated messages] with row q of the
  weight; the kernel adds the contraction of the features with the weight's first 128 columns to that of the
  aggregated messages with its last 128. A sum over 256 indices is the sum of its two halves; no finiteness is used.
-/
import proofs.«417579_j39651138076968_1_alg».proof.Proof.HostEntry
import proofs.«417579_j39651138076968_1_alg».proof.Proof.EntryReads
import proofs.«417579_j39651138076968_1_alg».proof.Proof.RefStages
import proofs.«417579_j39651138076968_1_alg».proof.Proof.Words

set_option maxRecDepth 16384

noncomputable section

namespace Cert.Proof.Bridge

open Cert.KernelIdeal Cert.KernelIdeal.Gen Cert.Proof.HostEntry
open Idealize.ShloMosaic Idealize.ShloMosaic.TcCoe Idealize.ShloMosaic.ValueIdx Idealize.SL.Sem

variable (m : (ℓ : Loc nD τ sig) → Buf (Elt Ideal) ℓ)

/-- The eleven launch arrays on core c. -/
abbrev A0 (c : Dev nD) : S50000.Idx → BitVec 32 := m ((c : Thread nD τ).loc main_arg0)
abbrev A1 (c : Dev nD) : S50000x128.Idx → EReal := m ((c : Thread nD τ).loc main_arg1)
abbrev A2 (c : Dev nD) : S600000.Idx → BitVec 32 := m ((c : Thread nD τ).loc main_arg2)
abbrev A3 (c : Dev nD) : S600000.Idx → BitVec 32 := m ((c : Thread nD τ).loc main_arg3)
abbrev A4 (c : Dev nD) : S600000x50.Idx → EReal := m ((c : Thread nD τ).loc main_arg4)
abbrev A5 (c : Dev nD) : S600000.Idx → EReal := m ((c : Thread nD τ).loc main_arg5)
abbrev A6 (c : Dev nD) : S100x128.Idx → EReal := m ((c : Thread nD τ).loc main_arg6)
abbrev A7 (c : Dev nD) : S128x50.Idx → EReal := m ((c : Thread nD τ).loc main_arg7)
abbrev A8 (c : Dev nD) : S128.Idx → EReal := m ((c : Thread nD τ).loc main_arg8)
abbrev A9 (c : Dev nD) : S128x256.Idx → EReal := m ((c : Thread nD τ).loc main_arg9)
abbrev A10 (c : Dev nD) : S128.Idx → EReal := m ((c : Thread nD τ).loc main_arg10)

/-- The two programs wrap and clamp the source index the same way. -/
theorem srcRow_eq (src : IVec S600000 32) (e : Fin 600000) :
    Cert.Proof.RefStages.srcRow src e = Cert.Proof.EntryReads.srcRow src e := by
  apply Fin.ext
  show min (Cert.Proof.RefStages.normIdx 50000 (src (ix1 e))).toInt.toNat 49999 = min (srcWrapped src (ix1 e)).toInt.toNat (50000 - 1)
  rw [Cert.Proof.EntryReads.srcWrapped_apply]
  rfl

/-- A node type in range names its own table row after the wrap and the clamp. -/
theorem ntRow_of_range (w : BitVec 32) (h0 : 0 ≤ w.toInt) (h1 : w.toInt < 100) :
    min (Cert.Proof.RefStages.normIdx 100 w).toInt.toNat 99 = w.toNat := by
  obtain ⟨hw, he⟩ := Cert.Proof.Words.toNat_of_range w h0 h1
  unfold Cert.Proof.RefStages.normIdx
  rw [if_neg (not_lt.2 h0), he]
  simp only [Int.toNat_natCast]
  omega

/-- The message array of the kernel program is the reference's message stage. -/
theorem msg_eq (c : Dev nD) (hnt : ∀ n : Fin 50000, 0 ≤ (A0 m c (ix1 n)).toInt ∧ (A0 m c (ix1 n)).toInt < 100) :
    msgK m c = Cert.ReferenceIdeal.Read.val_main_v33 (F := Ideal) (A0 m c) (A2 m c) (A4 m c) (A5 m c) (A6 m c) (A7 m c) (A8 m c) := by
  funext i
  obtain ⟨e, q, rfl⟩ : ∃ (e : Fin 600000) (q : Fin 128), i = ix2 e q := ⟨i 0, i 1, eq_ix2 i⟩
  rw [Cert.Proof.RefStages.msg_apply]
  unfold msgK
  rw [Cert.Proof.EdgeArray.msgOf_apply]
  unfold Cert.Proof.EdgeArray.edgeTerm
  rw [Cert.Proof.EntryReads.col_apply, Cert.Proof.EntryReads.row_apply, Cert.Proof.EntryReads.srcTypes_apply,
    Cert.Proof.Words.bit_as_float]
  have hr := hnt (Cert.Proof.EntryReads.srcRow (A2 m c) e)
  have hoh := Cert.Proof.Words.onehot_sum (A0 m c (ix1 (Cert.Proof.EntryReads.srcRow (A2 m c) e))) hr.1 hr.2
    (fun j => A6 m c (ix2 j q))
  rw [hoh]
  have hrow : (⟨(A0 m c (ix1 (Cert.Proof.EntryReads.srcRow (A2 m c) e))).toNat,
      (Cert.Proof.Words.toNat_of_range _ hr.1 hr.2).1⟩ : Fin 100) = Cert.Proof.RefStages.ntRow (A0 m c) (A2 m c) e := by
    apply Fin.ext
    show _ = min (Cert.Proof.RefStages.normIdx 100 (A0 m c (ix1 (Cert.Proof.RefStages.srcRow (A2 m c) e)))).toInt.toNat 99
    rw [srcRow_eq, ntRow_of_range _ hr.1 hr.2]
  rw [hrow]

/-- The aggregated messages of the kernel program are the reference's scatter-add stage. -/
theorem agg_eq (c : Dev nD) (hnt : ∀ n : Fin 50000, 0 ≤ (A0 m c (ix1 n)).toInt ∧ (A0 m c (ix1 n)).toInt < 100) :
    aggK m c = Cert.ReferenceIdeal.Read.val_main_v36 (F := Ideal) (A0 m c) (A2 m c) (A3 m c) (A4 m c) (A5 m c) (A6 m c) (A7 m c) (A8 m c) := by
  unfold aggK
  rw [msg_eq m c hnt]
  rfl

/-- The kernel program's result is the reference's result stage. -/
theorem value_eq (c : Dev nD) (hnt : ∀ n : Fin 50000, 0 ≤ (A0 m c (ix1 n)).toInt ∧ (A0 m c (ix1 n)).toInt < 100) :
    kernelValue m c = Cert.ReferenceIdeal.Read.val_main_v42 (F := Ideal) (A0 m c) (A1 m c) (A2 m c) (A3 m c) (A4 m c) (A5 m c)
      (A6 m c) (A7 m c) (A8 m c) (A9 m c) (A10 m c) := by
  funext i
  obtain ⟨n, q, rfl⟩ : ∃ (n : Fin 50000) (q : Fin 128), i = ix2 n q := ⟨i 0, i 1, eq_ix2 i⟩
  rw [Cert.Proof.RefStages.out_apply_split]
  unfold kernelValue
  rw [Cert.Proof.CombineArray.outOf_apply]
  unfold Cert.Proof.CombineArray.combTerm
  rw [Cert.Proof.EntryReads.row_apply, agg_eq m c hnt]
  simp only [Cert.Proof.EntryReads.half0_apply, Cert.Proof.EntryReads.half1_apply]

end Cert.Proof.Bridge

end
-- ==== Proof.lean ====
/-
  A message-passing layer over a graph of 50000 nodes and 600000 edges, as two tiled calls with a scatter-add between
  them, against its plain array reference, over the extended reals.

  Both programs compute, for edge e and feature q,
      msg(e, q) = emb[type(src e), q] · ((rbf[e, ·] · W_e[q, ·] + b_e[q]) · (½ (cos (dist[e] · π/5) + 1) · [dist[e] < 5])),
  sum the messages into their destination nodes, and return
      out(n, q) = [x[n, ·] | agg[n, ·]] · W_c[q, ·] + b_c[q].
  The tiled program reads emb[type, ·] as a 0/1-weighted sum over the table's 100 rows, where the reference indexes
  the table (wrapping a negative index and clamping): the two agree exactly when every node type lies in [0, 100),
  the range of the table the reference indexes, which the precondition states. It splits the 256-term contraction
  into its two 128-term halves, which is the same sum. Changes of float format are the identity over the extended
  reals, and no step needs the inputs to be finite.

  The three programs terminate without a fault with their arguments unchanged; the idealized kernel program is the
  kernel program's own text read over the extended reals (no rewrite was applied); and from memories agreeing on the
  arguments the two idealized programs end with equal results.
-/
import proofs.«417579_j39651138076968_1_alg».proof.Defs
import proofs.«417579_j39651138076968_1_alg».proof.Proof.Gen.Kernel
import proofs.«417579_j39651138076968_1_alg».proof.Proof.Gen.Kernel.Skeleton
import proofs.«417579_j39651138076968_1_alg».proof.Proof.Gen.Kernel.Launch
import proofs.«417579_j39651138076968_1_alg».proof.Proof.Gen.Kernel.Points
import proofs.«417579_j39651138076968_1_alg».proof.Proof.Gen.Kernel.Frame
import proofs.«417579_j39651138076968_1_alg».proof.Proof.Gen.KernelIdeal
import proofs.«417579_j39651138076968_1_alg».proof.Proof.Gen.KernelIdeal.Skeleton
import proofs.«417579_j39651138076968_1_alg».proof.Proof.Gen.KernelIdeal.Launch
import proofs.«417579_j39651138076968_1_alg».proof.Proof.Gen.KernelIdeal.Points
import proofs.«417579_j39651138076968_1_alg».proof.Proof.Gen.KernelIdeal.Frame
import proofs.«417579_j39651138076968_1_alg».proof.Proof.Gen.ReferenceIdeal
import proofs.«417579_j39651138076968_1_alg».proof.Proof.Gen.Pre_finite_inputs
import proofs.«417579_j39651138076968_1_alg».proof.Proof.Gen.ReferenceIdeal.Run
import proofs.«417579_j39651138076968_1_alg».proof.Proof.Gen.ReferenceIdeal.Read
import proofs.«417579_j39651138076968_1_alg».proof.Proof.KernelRun
import proofs.«417579_j39651138076968_1_alg».proof.Proof.Domain
import proofs.«417579_j39651138076968_1_alg».proof.Proof.HostEntry
import proofs.«417579_j39651138076968_1_alg».proof.Proof.Bridge
import Idealize.ShloMosaic.Adequacy
import Idealize.ShloMosaic.Init

set_option maxRecDepth 16384

noncomputable section

namespace Cert.Proof

open Idealize.ShloMosaic Idealize.ShloMosaic.ValueIdx Idealize.SL.Sem

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments, under the precondition, both idealized programs end with the kernel
    program's value of the launch arrays: the tiled program by its run and its two calls' array functions, the
    reference by its run, whose term is its result stage, which is that value when the node types are in range. -/
theorem algebraic : Cert.algebraic_KernelIdeal_ReferenceIdeal := by
  intro m ρ m' ρ' hpre hagree
  have hnt : ∀ (c : Dev Cert.KernelIdeal.nD) (n : Fin 50000),
      0 ≤ (Cert.Proof.Bridge.A0 m c (ix1 n)).toInt ∧ (Cert.Proof.Bridge.A0 m c (ix1 n)).toInt < 100 :=
    fun c n => Cert.Proof.Domain.node_type_range _ _ _ _ _ _ _ _ _ _ _ (hpre c) n
  refine ⟨fun c => Cert.Proof.HostEntry.kernelValue m c, ?_, ?_⟩
  · exact (θ_run Cert.KernelIdeal.defs _ _).mono
      (fun r h c => ⟨(h c).1.trans (Cert.Proof.HostEntry.W4_result m ρ c), (h c).2⟩)
      (Cert.KernelIdeal.Outcome.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [e0, e1, e2, e3, e4, e5, e6, e7, e8, e9, e10]
    refine (Cert.ReferenceIdeal.Read.val_main_v42_eq _ _ _ _ _ _ _ _ _ _ _).trans ?_
    exact (Cert.Proof.Bridge.value_eq m c (hnt c)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
